-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "inv_T" .f32 0x41649249#32 ((134217728 / 9395241 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1 : Shape := ⟨2, ![8192, 1]⟩
abbrev S8192 : Shape := ⟨1, ![8192]⟩
abbrev S_ : Shape := ⟨0, ![]⟩

class Facts : Prop where
  bcast_S_S8192x1 : S_.BroadcastsInDim S8192x1 (![] : Fin 0 → Fin S8192x1.rank)
  reducesTo_S8192x1_S_d0_1 : S8192x1.ReducesTo [0, 1] S_
  h_S_ : 0 < S_.numel

variable [Facts]

def fn {F : FTy → Type} [FloatOps F] (main_arg0 : FVec F S8192x1 .f32) (main_arg1 : FVec F S8192x1 .f32) (main_arg2 : IVec S8192 32) : IVec S_ 1 :=
  let main_v0 : FVec F S8192x1 .f32 := Host.absf main_arg0
  let main_cst : FVec F S_ .f32 := constant S_ .f32 0x7F800000#32
  let main_v1 : FVec F S8192x1 .f32 := broadcastInDim S8192x1 ![] bcast_S_S8192x1 main_cst
  let main_v2 : IVec S8192x1 1 := cmpf .olt main_v0 main_v1
  let main_c : IVec S_ 1 := constantI S_ 1 1#1
  let main_v3 : IVec S_ 1 := (fun x v => Host.reduce IntOp.andi x v reducesTo_S8192x1_S_d0_1 h_S_) main_v2 main_c
  let main_v4 : FVec F S8192x1 .f32 := Host.absf main_arg1
  let main_cst_0 : FVec F S_ .f32 := constant S_ .f32 0x7F800000#32
  let main_v5 : FVec F S8192x1 .f32 := broadcastInDim S8192x1 ![] bcast_S_S8192x1 main_cst_0
  let main_v6 : IVec S8192x1 1 := cmpf .olt main_v4 main_v5
  let main_c_1 : IVec S_ 1 := constantI S_ 1 1#1
  let main_v7 : IVec S_ 1 := (fun x v => Host.reduce IntOp.andi x v reducesTo_S8192x1_S_d0_1 h_S_) main_v6 main_c_1
  let main_v8 : IVec S_ 1 := andi main_v3 main_v7
  main_v8
-- ==== Kernel.lean ====
abbrev S8192x1 : Shape := ⟨2, ![8192, 1]⟩
abbrev S8192 : Shape := ⟨1, ![8192]⟩
abbrev S1x8192 : Shape := ⟨2, ![1, 8192]⟩
abbrev S_ : Shape := ⟨0, ![]⟩
abbrev S1x1 : Shape := ⟨2, ![1, 1]⟩
abbrev S1024x1 : Shape := ⟨2, ![1024, 1]⟩
abbrev S1x2048 : Shape := ⟨2, ![1, 2048]⟩
abbrev S1024x2048 : Shape := ⟨2, ![1024, 2048]⟩
abbrev S1024 : Shape := ⟨1, ![1024]⟩

abbrev nBuf : Space → Nat
  | .hbm => 19
  | .vmem => 10
  | .smem => 0
  | _ => 0

abbrev bufTy : (tb : Table) → Fin (tcTables nBuf tb) → BufTy
  | .hbm, ⟨0, _⟩ => ⟨S8192x1, .f32⟩
  | .hbm, ⟨1, _⟩ => ⟨S8192x1, .f32⟩
  | .hbm, ⟨2, _⟩ => ⟨S8192, .i32⟩
  | .hbm, ⟨3, _⟩ => ⟨S1x8192, .f32⟩
  | .hbm, ⟨4, _⟩ => ⟨S8192x1, .i32⟩
  | .hbm, ⟨5, _⟩ => ⟨S1x8192, .i32⟩
  | .hbm, ⟨6, _⟩ => ⟨S_, .f32⟩
  | .hbm, ⟨7, _⟩ => ⟨S_, .f32⟩
  | .hbm, ⟨8, _⟩ => ⟨S1x1, .f32⟩
  | .hbm, ⟨9, _⟩ => ⟨S_, .f32⟩
  | .hbm, ⟨10, _⟩ => ⟨S_, .f32⟩
  | .hbm, ⟨11, _⟩ => ⟨S1x1, .f32⟩
  | .hbm, ⟨12, _⟩ => ⟨S8192x1, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .local _ .vmem, ⟨0, _⟩ => ⟨S1024x1, .f32⟩
  | .local _ .vmem, ⟨1, _⟩ => ⟨S1024x1, .f32⟩
  | .local _ .vmem, ⟨2, _⟩ => ⟨S1x8192, .f32⟩
  | .local _ .vmem, ⟨3, _⟩ => ⟨S1024x1, .i32⟩
  | .local _ .vmem, ⟨4, _⟩ => ⟨S1024x1, .i32⟩
  | .local _ .vmem, ⟨5, _⟩ => ⟨S1x8192, .i32⟩
  | .local _ .vmem, ⟨6, _⟩ => ⟨S1x1, .f32⟩
  | .local _ .vmem, ⟨7, _⟩ => ⟨S1x1, .f32⟩
  | .local _ .vmem, ⟨8, _⟩ => ⟨S1024x1, .f32⟩
  | .local _ .vmem, ⟨9, _⟩ => ⟨S1024x1, .f32⟩
  | _, _ => ⟨S8192x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c4_i32 : BitVec 32 := 4#32
  let v15 : BitVec 32 := Scalar.addi c0_i32 c4_i32
  let c1_i32 : BitVec 32 := 1#32
  ⟨c0_i32, v15, c1_i32⟩
def k0_mult1 (k0_t1 : Fin k0_t1_loop.trips) : BitVec 32 :=
  let c0_i32 : BitVec 32 := 0#32
  let c1_i32 : BitVec 32 := 1#32
  let arg8 : BitVec 32 := Scf.iv c0_i32 c1_i32 k0_t1
  let c2048_i32 : BitVec 32 := 2048#32
  let v19 : BitVec 32 := Scalar.muli arg8 c2048_i32
  v19
def k0_off1 (k0_t1 : Fin k0_t1_loop.trips) : Fin 2 → Nat :=
  let c0_11 : Index := 0#32
  let c0_i32 : BitVec 32 := 0#32
  let c1_i32 : BitVec 32 := 1#32
  let arg8 : BitVec 32 := Scf.iv c0_i32 c1_i32 k0_t1
  let c2048_i32 : BitVec 32 := 2048#32
  let v19 : BitVec 32 := Scalar.muli arg8 c2048_i32
  let v20 : BitVec 32 := v19
  let v21 : Index := Scalar.indexCast v20
  ![0, v21.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x8192 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S8192x1_S1x8192 : S8192x1.ShapeCasts S1x8192
  shapeCasts_S8192_S8192x1 : S8192.ShapeCasts S8192x1
  shapeCasts_S8192_S1x8192 : S8192.ShapeCasts S1x8192
  reducesTo_S8192x1_S_d0_1 : S8192x1.ReducesTo [0, 1] S_
  h_S_ : 0 < S_.numel
  shapeCasts_S_S1x1 : S_.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1024x1_S1024x1_0_0 : ∀ a, (![0, 0] : Fin 2 → Nat) a + S1024x1.size a ≤ S1024x1.size a
  h_S1024x1 : 0 < S1024x1.numel
  broadcasts_S1x1_S1024x1 : S1x1.Broadcasts S1024x1
  shapeCasts_S1024x1_S1024x1 : S1024x1.ShapeCasts S1024x1
  h_S1x2048 : 0 < S1x2048.numel
  shapeCasts_S1x2048_S1x2048 : S1x2048.ShapeCasts S1x2048
  broadcasts_S1024x1_S1024x2048 : S1024x1.Broadcasts S1024x2048
  broadcasts_S1x2048_S1024x2048 : S1x2048.Broadcasts S1024x2048
  reduces_S1024x2048_S1024 : S1024x2048.Reduces [1] S1024
  shapeCasts_S1024_S1024x1 : S1024.ShapeCasts S1024x1
  hrank0 : 0 < grid0.rank
  k0_t1_ok : k0_t1_loop.OK
  k0_mult1_dvd : ∀ k0_t1 : Fin k0_t1_loop.trips, 2048 ∣ (k0_mult1 k0_t1).toNat
  k0_off1_inb : ∀ k0_t1 : Fin k0_t1_loop.trips, ∀ a, (k0_off1 k0_t1) a + S1x2048.size a ≤ S1x8192.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1.size a ≤ S8192x1.size a
  hwx0_0 : ∀ i : grid0.Coords, EltTy.bits .f32 = 32 ∨ (Rect.block (s := S8192x1) S1024x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x8192.size a ≤ S1x8192.size a
  hwx0_1 : ∀ i : grid0.Coords, EltTy.bits .f32 = 32 ∨ (Rect.block (s := S1x8192) S1x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .i32 = 32 ∨ (Rect.block (s := S8192x1) S1024x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x8192.size a ≤ S1x8192.size a
  hwx0_3 : ∀ i : grid0.Coords, EltTy.bits .i32 = 32 ∨ (Rect.block (s := S1x8192) S1x8192.size (cc0_transform_3 i) (hinb0_3 i)).WholeWords (EltTy.packing .i32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1.size a ≤ S8192x1.size a
  hwx0_6 : ∀ i : grid0.Coords, EltTy.bits .f32 = 32 ∨ (Rect.block (s := S8192x1) S1024x1.size (cc0_transform_6 i) (hinb0_6 i)).WholeWords (EltTy.packing .f32)

variable [Facts₀]

abbrev win0_0 : Pipeline.Window sig grid0 :=
  Pipeline.Window.ofSpec (Memref.whole main_arg0) S1024x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x8192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x8192.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1024x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8192x1 : Shape := ⟨2, ![8192, 1]⟩
abbrev S8192 : Shape := ⟨1, ![8192]⟩
abbrev S1x8192 : Shape := ⟨2, ![1, 8192]⟩
abbrev S8192x8192 : Shape := ⟨2, ![8192, 8192]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S8192x1, .f32⟩
  | .hbm, ⟨1, _⟩ => ⟨S8192x1, .f32⟩
  | .hbm, ⟨2, _⟩ => ⟨S8192, .i32⟩
  | .hbm, ⟨3, _⟩ => ⟨S8192x1, .i32⟩
  | .hbm, ⟨4, _⟩ => ⟨S1x8192, .i32⟩
  | .hbm, ⟨5, _⟩ => ⟨S8192x8192, .i32⟩
  | .hbm, ⟨6, _⟩ => ⟨S8192x8192, .i32⟩
  | .hbm, ⟨7, _⟩ => ⟨S8192x8192, .i1⟩
  | .hbm, ⟨8, _⟩ => ⟨S8192x8192, .f32⟩
  | .hbm, ⟨9, _⟩ => ⟨S_, .f32⟩
  | .hbm, ⟨10, _⟩ => ⟨S8192x8192, .f32⟩
  | .hbm, ⟨11, _⟩ => ⟨S8192x8192, .f32⟩
  | .hbm, ⟨12, _⟩ => ⟨S1x8192, .f32⟩
  | .hbm, ⟨13, _⟩ => ⟨S8192x8192, .f32⟩
  | .hbm, ⟨14, _⟩ => ⟨S_, .f32⟩
  | .hbm, ⟨15, _⟩ => ⟨S8192x8192, .f32⟩
  | .hbm, ⟨16, _⟩ => ⟨S8192x8192, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S8192x8192, .f32⟩
  | .hbm, ⟨21, _⟩ => ⟨S8192x8192, .f32⟩
  | .hbm, ⟨22, _⟩ => ⟨S8192x8192, .f32⟩
  | .hbm, ⟨23, _⟩ => ⟨S8192x8192, .f32⟩
  | .hbm, ⟨24, _⟩ => ⟨S8192x8192, .f32⟩
  | .hbm, ⟨25, _⟩ => ⟨S_, .f32⟩
  | .hbm, ⟨26, _⟩ => ⟨S8192, .f32⟩
  | .hbm, ⟨27, _⟩ => ⟨S8192x1, .f32⟩
  | .hbm, ⟨28, _⟩ => ⟨S8192x1, .f32⟩
  | .hbm, ⟨29, _⟩ => ⟨S8192x8192, .f32⟩
  | .hbm, ⟨30, _⟩ => ⟨S8192x8192, .f32⟩
  | .hbm, ⟨31, _⟩ => ⟨S8192x8192, .f32⟩
  | .hbm, ⟨32, _⟩ => ⟨S_, .f32⟩
  | .hbm, ⟨33, _⟩ => ⟨S8192, .f32⟩
  | .hbm, ⟨34, _⟩ => ⟨S_, .f32⟩
  | .hbm, ⟨35, _⟩ => ⟨S8192, .f32⟩
  | .hbm, ⟨36, _⟩ => ⟨S8192, .f32⟩
  | .hbm, ⟨37, _⟩ => ⟨S_, .f32⟩
  | .hbm, ⟨38, _⟩ => ⟨S8192, .f32⟩
  | .hbm, ⟨39, _⟩ => ⟨S8192, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | _, _ => ⟨S8192x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_3 : Ref sig .tc := ⟨.hbm, 32, rfl⟩
abbrev main_v25 : Ref sig .tc := ⟨.hbm, 33, rfl⟩
abbrev main_cst_4 : Ref sig .tc := ⟨.hbm, 34, rfl⟩
abbrev main_v26 : Ref sig .tc := ⟨.hbm, 35, rfl⟩
abbrev main_v27 : Ref sig .tc := ⟨.hbm, 36, rfl⟩
abbrev main_cst_5 : Ref sig .tc := ⟨.hbm, 37, rfl⟩
abbrev main_v28 : Ref sig .tc := ⟨.hbm, 38, rfl⟩
abbrev main_v29 : Ref sig .tc := ⟨.hbm, 39, rfl⟩
abbrev main_cst_6 : Ref sig .tc := ⟨.hbm, 40, rfl⟩
abbrev main_v30 : Ref sig .tc := ⟨.hbm, 41, rfl⟩
abbrev main_cst_7 : Ref sig .tc := ⟨.hbm, 42, rfl⟩
abbrev main_v31 : Ref sig .tc := ⟨.hbm, 43, rfl⟩

abbrev nD : Nat := 1
abbrev τ : Topo := Topo.v7x

variable {F : FTy → Type} [FloatOps F]

class Facts₀ : Prop where
  shapeCasts_S8192_S8192x1 : S8192.ShapeCasts S8192x1
  transposes_S8192x1_S1x8192_1_0 : S8192x1.Transposes [1, 0] S1x8192
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S8192_S8192x1_0 : S8192.BroadcastsInDim S8192x1 (![0] : Fin 1 → Fin S8192x1.rank)
  bcast_S_S8192 : S_.BroadcastsInDim S8192 (![] : Fin 0 → Fin S8192.rank)
  reducesTo_S8192_S_d0 : S8192.ReducesTo [0] S_
  dot_S8192x1_S1x8192_S8192x8192_1_0_0_1_n_n_wf : DotDims.WF S8192x1 S1x8192 S8192x8192 [1] [0] [0] [1] [] []

variable [Facts₀]

def dot_S8192x1_S1x8192_S8192x8192_1_0_0_1_n_n : DotDims S8192x1 S1x8192 S8192x8192 where
  lhsContracting := [1]
  rhsContracting := [0]
  lhsNonContracting := [0]
  rhsNonContracting := [1]
  lhsBatch := []
  rhsBatch := []
  wf := dot_S8192x1_S1x8192_S8192x8192_1_0_0_1_n_n_wf

class Facts : Prop extends Facts₀ where

variable [Facts]
-- ==== Proof.Spec.lean ====
/-
  The loss both programs compute, written over the real numbers.

  Inputs: real row features `q`, real column features `k` (8192 each) and 8192 integer labels. With the temperature
  `τ` (the single-precision number nearest 0.07) the logits are `q i · k j / τ`; row `i`'s logits are shifted by
  their largest value, exponentiated, and those at the columns carrying row `i`'s label are summed; the loss is the
  mean over the rows of the logarithm of that sum.

  Two arrangements of this number are written down, each mirroring one program operation by operation:
  * the tiled one multiplies by `1/τ`, takes the row maximum as the larger of the products with the largest and the
    smallest `k` (a product with a fixed factor is monotone in the other one), masks by selection, and sums the columns
    in four chunks of 2048;
  * the dense one divides by `τ`, takes the row maximum over all columns, masks by multiplication with a 0/1 indicator,
    and carries the remaining terms of a contrastive loss (the indicator times the negatives' exponentials, which vanish,
    and the division by the number of positives, which cancels).
-/
import Idealize.ShloMosaic.PureOps.Ideal

noncomputable section

namespace Cert.PosLogSum

open scoped BigOperators

/-- The temperature: the single-precision number nearest 0.07. -/
def temp : ℝ := 9395241 / 134217728

/-- Its reciprocal. -/
def invT : ℝ := 134217728 / 9395241

/-- The largest and the smallest column feature. -/
def kmax (kr : Fin 8192 → ℝ) : ℝ := Finset.univ.sup' Finset.univ_nonempty kr
def kmin (kr : Fin 8192 → ℝ) : ℝ := Finset.univ.inf' Finset.univ_nonempty kr

/-- Column `j` of chunk `a`: four chunks of 2048 columns. -/
def col (a : Fin 4) (j : Fin 2048) : Fin 8192 := ⟨a.val * 2048 + j.val, by have := a.isLt; have := j.isLt; omega⟩

/-! ## The tiled arrangement -/

/-- Row `i`'s shift: the larger of the scaled row feature times the largest and times the smallest column feature. -/
def shift (qr kr : Fin 8192 → ℝ) (i : Fin 8192) : ℝ := max (qr i * invT * kmax kr) (qr i * invT * kmin kr)

/-- Column `j`'s term of row `i`: the shifted logit's exponential where the labels agree, else zero. -/
def kerTerm (qr kr : Fin 8192 → ℝ) (lab : Fin 8192 → BitVec 32) (i j : Fin 8192) : ℝ :=
  if lab i = lab j then Real.exp (qr i * invT * kr j - shift qr kr i) else 0

/-- One chunk's sum of terms. -/
def kerChunk (qr kr : Fin 8192 → ℝ) (lab : Fin 8192 → BitVec 32) (i : Fin 8192) (a : Fin 4) : ℝ :=
  ∑ j : Fin 2048, kerTerm qr kr lab i (col a j)

/-- Row `i`'s sum over the four chunks. -/
def kerPosSum (qr kr : Fin 8192 → ℝ) (lab : Fin 8192 → BitVec 32) (i : Fin 8192) : ℝ :=
  ∑ a : Fin 4, kerChunk qr kr lab i a

/-- The loss, tiled: the mean of the rows' logarithms (times the factor one the program carries). -/
def kerLoss (qr kr : Fin 8192 → ℝ) (lab : Fin 8192 → BitVec 32) : ℝ :=
  1 * ((∑ i, Real.log (kerPosSum qr kr lab i)) / 8192)

/-! ## The dense arrangement -/

/-- The logits. -/
def refDist (qr kr : Fin 8192 → ℝ) (i j : Fin 8192) : ℝ := qr i * kr j / temp

/-- Row `i`'s largest logit. -/
def refMax (qr kr : Fin 8192 → ℝ) (i : Fin 8192) : ℝ := Finset.univ.sup' Finset.univ_nonempty (refDist qr kr i)

/-- The 0/1 indicator of equal labels. -/
def pos (lab : Fin 8192 → BitVec 32) (i j : Fin 8192) : ℝ := if lab i = lab j then 1 else 0

/-- The shifted logits' exponentials. -/
def refExp (qr kr : Fin 8192 → ℝ) (i j : Fin 8192) : ℝ := Real.exp (refDist qr kr i j - refMax qr kr i)

/-- Row `i`'s sum over the positives. -/
def refPosSum (qr kr : Fin 8192 → ℝ) (lab : Fin 8192 → BitVec 32) (i : Fin 8192) : ℝ :=
  ∑ j, refExp qr kr i j * pos lab i j

/-- The negatives' exponential minus the logarithm of the positives' sum. -/
def refLogProb (qr kr : Fin 8192 → ℝ) (lab : Fin 8192 → BitVec 32) (i j : Fin 8192) : ℝ :=
  refExp qr kr i j * (1 - pos lab i j) - Real.log (refPosSum qr kr lab i)

/-- Its mean over row `i`'s positives. -/
def refRow (qr kr : Fin 8192 → ℝ) (lab : Fin 8192 → BitVec 32) (i : Fin 8192) : ℝ :=
  (∑ j, pos lab i j * refLogProb qr kr lab i j) / (∑ j, pos lab i j)

/-- The loss, dense: the mean over the rows of minus that. -/
def refLoss (qr kr : Fin 8192 → ℝ) (lab : Fin 8192 → BitVec 32) : ℝ :=
  (∑ i, (-1) * refRow qr kr lab i) / 8192

end Cert.PosLogSum

end
-- ==== Proof.Law.lean ====
/-
  The two arrangements of the loss are one number.
-/
import proofs.«412339_j80324478370482_3_alg».proof.Proof.Spec

noncomputable section

namespace Cert.PosLogSum

open scoped BigOperators

theorem temp_pos : 0 < temp := by
  unfold temp
  norm_num

theorem invT_eq : invT = 1 / temp := by
  unfold invT temp
  norm_num

/-! ## The indicator -/

theorem pos_self (lab : Fin 8192 → BitVec 32) (i : Fin 8192) : pos lab i i = 1 := by
  unfold pos
  rw [if_pos rfl]

theorem pos_nonneg (lab : Fin 8192 → BitVec 32) (i j : Fin 8192) : 0 ≤ pos lab i j := by
  unfold pos
  split_ifs
  · exact zero_le_one
  · exact le_rfl

/-- A row always has a positive: its own column. -/
theorem posCount_pos (lab : Fin 8192 → BitVec 32) (i : Fin 8192) : 0 < ∑ j, pos lab i j := by
  have h : pos lab i i ≤ ∑ j, pos lab i j :=
    Finset.single_le_sum (fun j _ => pos_nonneg lab i j) (Finset.mem_univ i)
  rw [pos_self] at h
  exact lt_of_lt_of_le zero_lt_one h

/-! ## The row maximum -/

/-- Dividing by the temperature is multiplying by its reciprocal. -/
theorem refDist_eq (qr kr : Fin 8192 → ℝ) (i j : Fin 8192) :
    refDist qr kr i j = qr i * invT * kr j := by
  unfold refDist
  rw [invT_eq]
  ring

/-- The largest of the products `a * kr j` is the larger of `a` times the largest and `a` times the smallest
`kr j`: multiplication by `a` is monotone when `0 ≤ a` and antitone when `a < 0`. -/
theorem sup_mul_eq (a : ℝ) (kr : Fin 8192 → ℝ) :
    Finset.univ.sup' Finset.univ_nonempty (fun j => a * kr j) = max (a * kmax kr) (a * kmin kr) := by
  apply le_antisymm
  · apply Finset.sup'_le
    intro j _
    have h1 : kr j ≤ kmax kr := Finset.le_sup' kr (Finset.mem_univ j)
    have h2 : kmin kr ≤ kr j := Finset.inf'_le kr (Finset.mem_univ j)
    rcases le_or_gt 0 a with ha | ha
    · exact le_max_of_le_left (mul_le_mul_of_nonneg_left h1 ha)
    · exact le_max_of_le_right (mul_le_mul_of_nonpos_left h2 ha.le)
  · obtain ⟨j1, _, hj1⟩ := Finset.exists_mem_eq_sup' Finset.univ_nonempty kr
    obtain ⟨j2, _, hj2⟩ := Finset.exists_mem_eq_inf' Finset.univ_nonempty kr
    apply max_le
    · unfold kmax
      rw [hj1]
      exact Finset.le_sup' (fun j => a * kr j) (Finset.mem_univ j1)
    · unfold kmin
      rw [hj2]
      exact Finset.le_sup' (fun j => a * kr j) (Finset.mem_univ j2)

theorem refMax_eq (qr kr : Fin 8192 → ℝ) (i : Fin 8192) : refMax qr kr i = shift qr kr i := by
  unfold refMax shift
  have h : refDist qr kr i = fun j => qr i * invT * kr j := funext (refDist_eq qr kr i)
  rw [h]
  exact sup_mul_eq (qr i * invT) kr

/-! ## The terms and their sums -/

/-- Masking by multiplication with the indicator is masking by selection. -/
theorem refExp_mul_pos (qr kr : Fin 8192 → ℝ) (lab : Fin 8192 → BitVec 32) (i j : Fin 8192) :
    refExp qr kr i j * pos lab i j = kerTerm qr kr lab i j := by
  unfold refExp pos kerTerm
  rw [refDist_eq, refMax_eq]
  split_ifs
  · rw [mul_one]
  · rw [mul_zero]

theorem refPosSum_eq_sum (qr kr : Fin 8192 → ℝ) (lab : Fin 8192 → BitVec 32) (i : Fin 8192) :
    refPosSum qr kr lab i = ∑ j, kerTerm qr kr lab i j := by
  unfold refPosSum
  exact Finset.sum_congr rfl (fun j _ => refExp_mul_pos qr kr lab i j)

/-- Summing over four chunks of 2048 columns is summing over all 8192 columns. -/
theorem sum_chunks (f : Fin 8192 → ℝ) :
    ∑ a : Fin 4, ∑ j : Fin 2048, f (col a j) = ∑ j : Fin 8192, f j := by
  rw [← Fintype.sum_prod_type' (fun (a : Fin 4) (j : Fin 2048) => f (col a j))]
  refine Fintype.sum_equiv (finProdFinEquiv (m := 4) (n := 2048)) _ _ ?_
  rintro ⟨a, j⟩
  congr 1
  apply Fin.ext
  show a.val * 2048 + j.val = j.val + 2048 * a.val
  omega

theorem kerPosSum_eq (qr kr : Fin 8192 → ℝ) (lab : Fin 8192 → BitVec 32) (i : Fin 8192) :
    kerPosSum qr kr lab i = refPosSum qr kr lab i := by
  unfold kerPosSum kerChunk
  rw [refPosSum_eq_sum]
  exact sum_chunks (fun j => kerTerm qr kr lab i j)

theorem kerTerm_nonneg (qr kr : Fin 8192 → ℝ) (lab : Fin 8192 → BitVec 32) (i j : Fin 8192) :
    0 ≤ kerTerm qr kr lab i j := by
  unfold kerTerm
  split_ifs
  · exact (Real.exp_pos _).le
  · exact le_rfl

theorem refPosSum_pos (qr kr : Fin 8192 → ℝ) (lab : Fin 8192 → BitVec 32) (i : Fin 8192) : 0 < refPosSum qr kr lab i := by
  rw [refPosSum_eq_sum]
  have hi : 0 < kerTerm qr kr lab i i := by
    unfold kerTerm
    rw [if_pos rfl]
    exact Real.exp_pos _
  exact lt_of_lt_of_le hi
    (Finset.single_le_sum (fun j _ => kerTerm_nonneg qr kr lab i j) (Finset.mem_univ i))

theorem kerPosSum_pos (qr kr : Fin 8192 → ℝ) (lab : Fin 8192 → BitVec 32) (i : Fin 8192) : 0 < kerPosSum qr kr lab i := by
  rw [kerPosSum_eq]
  exact refPosSum_pos qr kr lab i

/-! ## The rows and the loss -/

/-- On a positive column the negatives' term vanishes; off it the indicator kills the whole term. The mean over the
positives of a constant is that constant. -/
theorem refRow_eq (qr kr : Fin 8192 → ℝ) (lab : Fin 8192 → BitVec 32) (i : Fin 8192) :
    refRow qr kr lab i = - Real.log (refPosSum qr kr lab i) := by
  unfold refRow
  have hterm : ∀ j, pos lab i j * refLogProb qr kr lab i j
      = pos lab i j * (- Real.log (refPosSum qr kr lab i)) := by
    intro j
    unfold refLogProb pos
    split_ifs
    · rw [sub_self, mul_zero, zero_sub]
    · rw [zero_mul, zero_mul]
  rw [Finset.sum_congr rfl (fun j _ => hterm j), ← Finset.sum_mul]
  exact mul_div_cancel_left₀ _ (posCount_pos lab i).ne'

theorem kerLoss_eq_refLoss (qr kr : Fin 8192 → ℝ) (lab : Fin 8192 → BitVec 32) : kerLoss qr kr lab = refLoss qr kr lab := by
  unfold kerLoss refLoss
  rw [one_mul]
  congr 1
  apply Finset.sum_congr rfl
  intro i _
  rw [refRow_eq, kerPosSum_eq, neg_one_mul, neg_neg]

end Cert.PosLogSum

end
-- ==== Proof.Finite.lean ====
/-
  Under the precondition every entry of the two feature arrays is a real number.

  The precondition says that the absolute value of every entry of either array is below +∞. An extended real whose
  absolute value max(x, −x) is below +∞ is neither −∞ nor +∞, hence a real.
-/
import proofs.«412339_j80324478370482_3_alg».proof.Proof.Gen.Pre_finite_inputs
import Idealize.ShloMosaic.Lib.ReduceAll
import Idealize.ShloMosaic.Lib.ValueIdx
import Idealize.ShloMosaic.PureOps.Ideal

noncomputable section

namespace Cert.Finite

open Idealize.ShloMosaic Idealize.ShloMosaic.ValueIdx

/-- The scalar shape has one index. -/
instance : Subsingleton Cert.Pre_finite_inputs.S_.Idx := ⟨fun a b => funext fun d => d.elim0⟩

/-- The f32 word `0x7F800000` denotes +∞. -/
theorem ofBits_posInf_f32 : Ideal.ofBits .f32 0x7F800000#32 = (⊤ : EReal) := by
  simp [Ideal.ofBits, Ideal.ieee]

/-- An extended real whose absolute value compares below +∞ is a real. -/
theorem real_of_abs_lt_top (x : EReal)
    (hx : Ideal.cmp .olt (max x (-x)) (Ideal.ofBits .f32 0x7F800000#32) = 1#1) : ∃ r : ℝ, x = (r : EReal) := by
  rw [ofBits_posInf_f32] at hx
  induction x using EReal.rec with
  | bot => exfalso; revert hx; simp [Ideal.cmp]
  | coe r => exact ⟨r, rfl⟩
  | top => exfalso; revert hx; simp [Ideal.cmp]

theorem reals_of_pre (x0 x1 : FVec Ideal Cert.Pre_finite_inputs.S8192x1 .f32) (x2 : IVec Cert.Pre_finite_inputs.S8192 32)
    (h : Cert.Pre_finite_inputs.fn (F := Ideal) x0 x1 x2 = fun _ => 1#1) :
    (∃ qr : Fin 8192 → ℝ, ∀ i : Fin 8192, x0 (ix2 i (0 : Fin 1)) = ((qr i : ℝ) : EReal)) ∧
    (∃ kr : Fin 8192 → ℝ, ∀ i : Fin 8192, x1 (ix2 i (0 : Fin 1)) = ((kr i : ℝ) : EReal)) := by
  have h0 := congrFun h ValueIdx.ix0
  dsimp only [Cert.Pre_finite_inputs.fn] at h0
  obtain ⟨ha, hb⟩ := IntOp.andi_eq_one.1 h0
  have ea := fun i => Host.reduce_andi_all _ _ _ _ _ ha i
  have eb := fun i => Host.reduce_andi_all _ _ _ _ _ hb i
  have ra : ∀ i : Fin 8192, ∃ r : ℝ, x0 (ix2 i (0 : Fin 1)) = (r : EReal) :=
    fun i => real_of_abs_lt_top _ (ea (ix2 i (0 : Fin 1)))
  have rb : ∀ i : Fin 8192, ∃ r : ℝ, x1 (ix2 i (0 : Fin 1)) = (r : EReal) :=
    fun i => real_of_abs_lt_top _ (eb (ix2 i (0 : Fin 1)))
  choose qr hqr using ra
  choose kr hkr using rb
  exact ⟨⟨qr, hqr⟩, ⟨kr, hkr⟩⟩

end Cert.Finite

end
-- ==== Proof.LibRealSums.lean ====
/-
  Finite sums and maxima of real numbers inside the extended reals, and the softmax's division law.
  An idealized float is an extended real; a proof that needs a law of the reals (here: a quotient of a sum is the sum of the
  quotients) first shows that the numbers involved are reals and then computes in ℝ. These are the general steps:
  the inclusion of ℝ commutes with finite sums and with max; a finite sum of reals is a real, of positive reals over a
  nonempty set a positive real; a fold of max from −∞ over a nonempty set of reals is a real; and dividing a weighted sum once
  by a nonzero real is dividing every weight first. General in the index types.
-/
import Idealize.ShloMosaic.PureOps.Ideal
import Idealize.ShloMosaic.PureOps.Ideal.Laws

noncomputable section

namespace Cert.RealSums

open Idealize.ShloMosaic
open scoped BigOperators

/-- The inclusion of the reals in the extended reals carries a finite sum to the sum of the inclusions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of reals is a real. -/
theorem sum_real {ι : Type*} (s : Finset ι) (f : ι → EReal) (hf : ∀ i, ∃ r : ℝ, f i = (r : EReal)) :
    ∃ r : ℝ, ∑ i ∈ s, f i = (r : EReal) := by
  choose g hg using hf
  exact ⟨∑ i ∈ s, g i, by rw [coe_sum]; exact Finset.sum_congr rfl fun i _ => hg i⟩

/-- A finite sum of positive reals over a nonempty index set is a positive real. -/
theorem sum_pos_real {ι : Type*} (s : Finset ι) (hs : s.Nonempty) (f : ι → EReal)
    (hf : ∀ i, ∃ r : ℝ, 0 < r ∧ f i = (r : EReal)) :
    ∃ r : ℝ, 0 < r ∧ ∑ i ∈ s, f i = (r : EReal) := by
  choose g hg using hf
  exact ⟨∑ i ∈ s, g i, Finset.sum_pos (fun i _ => (hg i).1) hs,
    by rw [coe_sum]; exact Finset.sum_congr rfl fun i _ => (hg i).2⟩

/-- The inclusion of the reals carries the larger of two reals to the larger of the inclusions. -/
theorem coe_max (a b : ℝ) : ((max a b : ℝ) : EReal) = max (a : EReal) (b : EReal) :=
  EReal.coe_strictMono.monotone.map_max

/-- The maximum of finitely many reals, folded from −∞ over a nonempty index set, is a real. -/
theorem fold_max_bot_real {ι : Type*} (s : Finset ι) (hs : s.Nonempty) (f : ι → EReal)
    (hf : ∀ i, ∃ r : ℝ, f i = (r : EReal)) :
    ∃ r : ℝ, s.fold max (⊥ : EReal) f = (r : EReal) := by
  choose g hg using hf
  induction hs using Finset.Nonempty.cons_induction with
  | singleton a => exact ⟨g a, by rw [Finset.fold_singleton, hg a, max_eq_left bot_le]⟩
  | cons a s ha hs ih =>
    obtain ⟨r, hr⟩ := ih
    exact ⟨max (g a) r, by rw [Finset.fold_cons, hr, hg a, coe_max]⟩

/-- The softmax's division law: for real weights `p`, real values `v` and a nonzero real `l`, the weighted sum divided once
    by `l` is the sum with every weight divided by `l` first. -/
theorem div_sum_eq_sum_div {ι : Type*} (s : Finset ι) (p v : ι → ℝ) (l : ℝ) (hl : l ≠ 0) :
    Ideal.div (∑ κ ∈ s, (p κ : EReal) * (v κ : EReal)) (l : EReal) = ∑ κ ∈ s, Ideal.div (p κ : EReal) (l : EReal) * (v κ : EReal) := by
  simp only [Ideal.div_coe hl]
  have hK : (∑ κ ∈ s, (p κ : EReal) * (v κ : EReal)) = ((∑ κ ∈ s, p κ * v κ : ℝ) : EReal) := by
    rw [coe_sum]; exact Finset.sum_congr rfl fun κ _ => (EReal.coe_mul _ _)
  have hR : (∑ κ ∈ s, (p κ : EReal) * ((1 / l : ℝ) : EReal) * (v κ : EReal))
      = ((∑ κ ∈ s, p κ * (1 / l) * v κ : ℝ) : EReal) := by
    rw [coe_sum]; exact Finset.sum_congr rfl fun κ _ => by rw [EReal.coe_mul, EReal.coe_mul]
  rw [hK, hR, ← EReal.coe_mul, Finset.sum_mul]
  exact congrArg _ (Finset.sum_congr rfl fun κ _ => mul_right_comm _ _ _)

end Cert.RealSums

end
-- ==== Proof.LibColumn.lean ====
/-
  A column kept as a unit axis: the two layout steps of a row reduction with `keepdims`.

  A length-`a` vector cast to an `[a, 1]` column reads, at `(i, 0)`, the vector at `i`; an `[a, 1]` column broadcast
  to `[a, b]` reads, at `(i, j)`, the column at `(i, 0)`. General in `a` and `b` and in the element type.
  Also the two float words a row maximum and a reciprocal start from: −∞ and 1.
-/
import Idealize.ShloMosaic.Lib.Pipeline.Value
import Idealize.ShloMosaic.Lib.ValueIdx
import Idealize.ShloMosaic.PureOps.Ideal

noncomputable section

namespace Idealize.ShloMosaic.Column

open Idealize.ShloMosaic Idealize.ShloMosaic.ValueIdx

variable {α : Type}

/-- A vector `[a]` cast to a column `[a, 1]` reads, at `(i, u)`, the vector at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` broadcast to `[a, b]` reads, at `(i, j)`, the column at `(i, 0)`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]

/-- The f32 word `0xFF800000` denotes −∞. -/
theorem ofBits_negInf_f32 : Ideal.ofBits .f32 0xFF800000#32 = (⊥ : EReal) := by
  simp [Ideal.ofBits, Ideal.ieee]

/-- The f32 word `0x3F800000` denotes 1. -/
theorem ofBits_one_f32 : Ideal.ofBits .f32 0x3F800000#32 = (1 : EReal) := by
  have h : Ideal.ofBits .f32 0x3F800000#32 = ((1 : ℝ) : EReal) := by
    simp [Ideal.ofBits, Ideal.ieee, -EReal.coe_mul]; norm_num
  rw [h, EReal.coe_one]

end Idealize.ShloMosaic.Column

end
-- ==== Proof.RefValue.lean ====
/-
  The dense program's result, for real features, is the dense arrangement of the loss.

  Each operation of the dense program is read at explicit coordinates and shown to be the inclusion, in the extended
  reals, of the matching real-valued definition: the 0/1 indicator of equal labels, the logits, their row maximum (a fold
  of max from −∞ over a nonempty row of reals is the real supremum), the shifted exponentials, the row sums over the
  positives (positive, so their logarithms are real logarithms), the rows' means over their positives (a positive count,
  so the division is the real one), and the mean over the rows.
-/
import proofs.«412339_j80324478370482_3_alg».proof.Proof.Gen.ReferenceIdeal.Read
import proofs.«412339_j80324478370482_3_alg».proof.Proof.Spec
import proofs.«412339_j80324478370482_3_alg».proof.Proof.Law
import proofs.«412339_j80324478370482_3_alg».proof.Proof.LibRealSums
import proofs.«412339_j80324478370482_3_alg».proof.Proof.LibColumn

noncomputable section

namespace Cert.RefValue

open Idealize.ShloMosaic Idealize.ShloMosaic.ValueIdx Cert.ReferenceIdeal Cert.ReferenceIdeal.Gen Cert.ReferenceIdeal.Read Cert.PosLogSum
open scoped BigOperators

/-! ## The float words of the program -/

/-- The f32 word `0x3D8F5C29` denotes the temperature. -/
theorem ofBits_temp : Ideal.ofBits .f32 0x3D8F5C29#32 = ((temp : ℝ) : EReal) := by
  have h : Ideal.ofBits .f32 0x3D8F5C29#32 = ((9395241 / 134217728 : ℝ) : EReal) := by
    simp [Ideal.ofBits, Ideal.ieee, -EReal.coe_mul]; norm_num
  rw [h]; rfl

/-- The f32 word `0xBF800000` denotes −1. -/
theorem ofBits_negOne : Ideal.ofBits .f32 0xBF800000#32 = (((-1 : ℝ)) : EReal) := by
  simp [Ideal.ofBits, Ideal.ieee, -EReal.coe_mul]; norm_num

/-- The f32 word `0x46000000` denotes 8192. -/
theorem ofBits_8192 : Ideal.ofBits .f32 0x46000000#32 = (((8192 : ℝ)) : EReal) := by
  simp [Ideal.ofBits, Ideal.ieee, -EReal.coe_mul]; norm_num

/-! ## Index equations: the layout operations' source indices, by coordinates -/

theorem idx0 (i : Fin 8192) (u : Fin 1) : idx_main_v0 (ix2 i u) = ix1 i :=
  funext fun a => Fin.ext (by
    match a with
    | ⟨0, _⟩ => show i.val * 1 + u.val = i.val; omega)

theorem idx1 (u : Fin 1) (j : Fin 8192) : idx_main_v1 (ix2 u j) = ix2 j u :=
  funext fun a => Fin.ext (by match a with | ⟨0, _⟩ => rfl | ⟨1, _⟩ => rfl)

theorem idx2 (i j : Fin 8192) : idx_main_v2 (ix2 i j) = ix2 i (0 : Fin 1) :=
  funext fun a => Fin.ext (by match a with | ⟨0, _⟩ => rfl | ⟨1, _⟩ => rfl)

theorem idx3 (i j : Fin 8192) : idx_main_v3 (ix2 i j) = ix2 (0 : Fin 1) j :=
  funext fun a => Fin.ext (by match a with | ⟨0, _⟩ => rfl | ⟨1, _⟩ => rfl)

theorem idx8 (u : Fin 1) (j : Fin 8192) : idx_main_v8 (ix2 u j) = ix2 j u :=
  funext fun a => Fin.ext (by match a with | ⟨0, _⟩ => rfl | ⟨1, _⟩ => rfl)

theorem lidx9 (i j : Fin 8192) (k : Fin 1) : lidx_main_v9 (ix2 i j) k = ix2 i k :=
  funext fun a => Fin.ext (by match a with | ⟨0, _⟩ => rfl | ⟨1, _⟩ => rfl)

theorem ridx9 (i j : Fin 8192) (k : Fin 1) : ridx_main_v9 (ix2 i j) k = ix2 k j :=
  funext fun a => Fin.ext (by match a with | ⟨0, _⟩ => rfl | ⟨1, _⟩ => rfl)

theorem idx13 (i : Fin 8192) (u : Fin 1) : idx_main_v13 (ix2 i u) = ix1 i :=
  funext fun a => Fin.ext (by match a with | ⟨0, _⟩ => rfl)

theorem idx14 (i j : Fin 8192) : idx_main_v14 (ix2 i j) = ix2 i (0 : Fin 1) :=
  funext fun a => Fin.ext (by match a with | ⟨0, _⟩ => rfl | ⟨1, _⟩ => rfl)

theorem idx19 (i k : Fin 8192) : idx_main_v19 (ix1 i) k = ix2 i k :=
  funext fun a => Fin.ext (by match a with | ⟨0, _⟩ => rfl | ⟨1, _⟩ => rfl)

theorem idx20 (i : Fin 8192) (u : Fin 1) : idx_main_v20 (ix2 i u) = ix1 i :=
  funext fun a => Fin.ext (by match a with | ⟨0, _⟩ => rfl)

theorem idx22 (i j : Fin 8192) : idx_main_v22 (ix2 i j) = ix2 i (0 : Fin 1) :=
  funext fun a => Fin.ext (by match a with | ⟨0, _⟩ => rfl | ⟨1, _⟩ => rfl)

theorem idx25 (i k : Fin 8192) : idx_main_v25 (ix1 i) k = ix2 i k :=
  funext fun a => Fin.ext (by match a with | ⟨0, _⟩ => rfl | ⟨1, _⟩ => rfl)

theorem idx26 (i k : Fin 8192) : idx_main_v26 (ix1 i) k = ix2 i k :=
  funext fun a => Fin.ext (by match a with | ⟨0, _⟩ => rfl | ⟨1, _⟩ => rfl)

/-! ## The stages, bottom-up -/

section Stages

variable (x0 x1 : (⟨S8192x1, .f32⟩ : BufTy).Contents (Elt Ideal)) (x2 : (⟨S8192, .i32⟩ : BufTy).Contents (Elt Ideal))

/-- The label column read at `(i, 0)` is label `i`. -/
theorem v0_at (i : Fin 8192) (u : Fin 1) : val_main_v0 (F := Ideal) x2 (ix2 i u) = x2 (ix1 i) := by
  rw [val_main_v0_apply, idx0]

/-- The indicator of equal labels. -/
theorem v5_at (i j : Fin 8192) :
    val_main_v5 (F := Ideal) x2 (ix2 i j) = ((pos (fun i => x2 (ix1 i)) i j : ℝ) : EReal) := by
  rw [val_main_v5_apply, val_main_v4_apply, val_main_v2_apply, val_main_v3_apply, val_main_v1_apply, idx2, idx3, idx1,
    v0_at, v0_at]
  show (((IntOp.cmpi .eq (x2 (ix1 i)) (x2 (ix1 j))).toNat : ℝ) : EReal) = _
  unfold pos
  by_cases h : x2 (ix1 i) = x2 (ix1 j)
  · simp [IntOp.cmpi, h]
  · simp [IntOp.cmpi, h]

/-- One minus the indicator. -/
theorem v7_at (i j : Fin 8192) :
    val_main_v7 (F := Ideal) x2 (ix2 i j) = ((1 - pos (fun i => x2 (ix1 i)) i j : ℝ) : EReal) := by
  rw [val_main_v7_apply, val_main_v6_apply, val_main_cst_apply, v5_at, Ideal.subf_def, Ideal.ofBits_def,
    Column.ofBits_one_f32, ← EReal.coe_one, ← EReal.coe_sub]

end Stages

/-- A maximum of finitely many reals, folded from −∞ inside the extended reals over a nonempty set, is the
    inclusion of the real supremum. -/
theorem fold_max_coe {ι : Type*} (s : Finset ι) (hs : s.Nonempty) (g : ι → ℝ) :
    s.fold max (⊥ : EReal) (fun i => ((g i : ℝ) : EReal)) = ((s.sup' hs g : ℝ) : EReal) := by
  induction hs using Finset.Nonempty.cons_induction with
  | singleton a => rw [Finset.fold_singleton, Finset.sup'_singleton, max_eq_left bot_le]
  | cons a s ha hs ih => rw [Finset.fold_cons, ih, Finset.sup'_cons hs, ← Cert.RealSums.coe_max]

/-- The row reduction drops the column axis. -/
theorem reduces1 : S8192x8192.Reduces [1] S8192 := by decide

/-- Row index `i` with column `k` inserted is `(i, k)`. -/
theorem lift1 (i k : Fin 8192) : reduces1.lift (ix1 i) k = ix2 i k :=
  funext fun c => Fin.ext (by
    match c with
    | ⟨0, _⟩ => rfl
    | ⟨1, _⟩ => rfl)

section Stages2

variable (x0 x1 : (⟨S8192x1, .f32⟩ : BufTy).Contents (Elt Ideal)) (x2 : (⟨S8192, .i32⟩ : BufTy).Contents (Elt Ideal))
  (qr kr : Fin 8192 → ℝ)
  (hq : ∀ i : Fin 8192, x0 (ix2 i (0 : Fin 1)) = ((qr i : ℝ) : EReal))
  (hk : ∀ i : Fin 8192, x1 (ix2 i (0 : Fin 1)) = ((kr i : ℝ) : EReal))

include hq hk

/-- The products of the features. -/
theorem v9_at (i j : Fin 8192) : val_main_v9 (F := Ideal) x0 x1 (ix2 i j) = ((qr i * kr j : ℝ) : EReal) := by
  rw [val_main_v9_apply, Fin.sum_univ_one, lidx9, ridx9, val_main_v8_apply, idx8, hq, hk, ← EReal.coe_mul]

/-- The logits. -/
theorem v11_at (i j : Fin 8192) : val_main_v11 (F := Ideal) x0 x1 (ix2 i j) = ((refDist qr kr i j : ℝ) : EReal) := by
  rw [val_main_v11_apply, val_main_v10_apply, val_main_cst_0_apply, v9_at x0 x1 qr kr hq hk, Ideal.hostDivf_def,
    Ideal.ofBits_def, ofBits_temp, Ideal.div_coe temp_pos.ne', ← EReal.coe_mul]
  unfold refDist
  rw [mul_one_div]

/-- The row maximum. -/
theorem v12_at (i : Fin 8192) : val_main_v12 (F := Ideal) x0 x1 (ix1 i) = ((refMax qr kr i : ℝ) : EReal) := by
  unfold val_main_v12
  rw [Host.reduce_eq_fold_single FloatOps.maximumf _ _ reducesTo_S8192x8192_S8192_d1 reduces1 h_S_ (ix1 i),
    val_main_cst_1_apply, Ideal.ofBits_def, Column.ofBits_negInf_f32]
  have hrow : (val_main_v11 (F := Ideal) x0 x1 ∘ reduces1.lift (ix1 i))
      = fun k : Fin 8192 => ((refDist qr kr i k : ℝ) : EReal) := by
    funext k
    exact (congrArg (val_main_v11 (F := Ideal) x0 x1) (lift1 i k)).trans (v11_at x0 x1 qr kr hq hk i k)
  rw [hrow]
  exact fold_max_coe Finset.univ Finset.univ_nonempty (refDist qr kr i)

end Stages2

/-- A rank-1 index set is its coordinate range. -/
def rowEquiv : Fin 8192 ≃ S8192.Idx where
  toFun := ix1
  invFun j := j 0
  left_inv _ := rfl
  right_inv j := (eq_ix1 j).symm

section Stages3

variable (x0 x1 : (⟨S8192x1, .f32⟩ : BufTy).Contents (Elt Ideal)) (x2 : (⟨S8192, .i32⟩ : BufTy).Contents (Elt Ideal))
  (qr kr : Fin 8192 → ℝ)
  (hq : ∀ i : Fin 8192, x0 (ix2 i (0 : Fin 1)) = ((qr i : ℝ) : EReal))
  (hk : ∀ i : Fin 8192, x1 (ix2 i (0 : Fin 1)) = ((kr i : ℝ) : EReal))

include hq hk

/-- The shifted logits' exponentials. -/
theorem v16_at (i j : Fin 8192) : val_main_v16 (F := Ideal) x0 x1 (ix2 i j) = ((refExp qr kr i j : ℝ) : EReal) := by
  show _ = ((Real.exp (refDist qr kr i j - refMax qr kr i) : ℝ) : EReal)
  rw [val_main_v16_apply, val_main_v15_apply, val_main_v14_apply, idx14, val_main_v13_apply, idx13,
    v11_at x0 x1 qr kr hq hk, v12_at x0 x1 qr kr hq hk, Ideal.subf_def, Ideal.hostUnary_exp_def, ← EReal.coe_sub,
    Ideal.exp_coe]

/-- The positives' exponentials. -/
theorem v17_at (i j : Fin 8192) :
    val_main_v17 (F := Ideal) x0 x1 x2 (ix2 i j)
      = ((refExp qr kr i j * pos (fun i => x2 (ix1 i)) i j : ℝ) : EReal) := by
  rw [val_main_v17_apply, v16_at x0 x1 qr kr hq hk, v5_at, Ideal.mulf_def, ← EReal.coe_mul]

/-- The negatives' exponentials. -/
theorem v18_at (i j : Fin 8192) :
    val_main_v18 (F := Ideal) x0 x1 x2 (ix2 i j)
      = ((refExp qr kr i j * (1 - pos (fun i => x2 (ix1 i)) i j) : ℝ) : EReal) := by
  rw [val_main_v18_apply, v16_at x0 x1 qr kr hq hk, v7_at, Ideal.mulf_def, ← EReal.coe_mul]

/-- The row sums over the positives. -/
theorem v19_at (i : Fin 8192) :
    val_main_v19 (F := Ideal) x0 x1 x2 (ix1 i) = ((refPosSum qr kr (fun i => x2 (ix1 i)) i : ℝ) : EReal) := by
  rw [val_main_v19_apply, val_main_cst_2_apply, Ideal.ofBits_def, Ideal.ofBits_zero_f32, zero_add]
  unfold refPosSum
  rw [Cert.RealSums.coe_sum]
  exact Finset.sum_congr rfl fun k _ => by rw [idx19, v17_at x0 x1 x2 qr kr hq hk]

/-- Their logarithms. -/
theorem v21_at (i : Fin 8192) (u : Fin 1) :
    val_main_v21 (F := Ideal) x0 x1 x2 (ix2 i u)
      = ((Real.log (refPosSum qr kr (fun i => x2 (ix1 i)) i) : ℝ) : EReal) := by
  rw [val_main_v21_apply, val_main_v20_apply, idx20, v19_at x0 x1 x2 qr kr hq hk, Ideal.hostUnary_log_def, Ideal.log_coe,
    if_neg (not_le.mpr (refPosSum_pos qr kr _ i))]

/-- The negatives' exponential minus the logarithm of the positives' sum. -/
theorem v23_at (i j : Fin 8192) :
    val_main_v23 (F := Ideal) x0 x1 x2 (ix2 i j)
      = ((refLogProb qr kr (fun i => x2 (ix1 i)) i j : ℝ) : EReal) := by
  rw [val_main_v23_apply, val_main_v22_apply, idx22, v18_at x0 x1 x2 qr kr hq hk, v21_at x0 x1 x2 qr kr hq hk,
    Ideal.subf_def, ← EReal.coe_sub]
  rfl

/-- The indicator times that. -/
theorem v24_at (i j : Fin 8192) :
    val_main_v24 (F := Ideal) x0 x1 x2 (ix2 i j)
      = ((pos (fun i => x2 (ix1 i)) i j * refLogProb qr kr (fun i => x2 (ix1 i)) i j : ℝ) : EReal) := by
  rw [val_main_v24_apply, v5_at, v23_at x0 x1 x2 qr kr hq hk, Ideal.mulf_def, ← EReal.coe_mul]

/-- Its row sums. -/
theorem v25_at (i : Fin 8192) :
    val_main_v25 (F := Ideal) x0 x1 x2 (ix1 i)
      = ((∑ j, pos (fun i => x2 (ix1 i)) i j * refLogProb qr kr (fun i => x2 (ix1 i)) i j : ℝ) : EReal) := by
  rw [val_main_v25_apply, val_main_cst_3_apply, Ideal.ofBits_def, Ideal.ofBits_zero_f32, zero_add,
    Cert.RealSums.coe_sum]
  exact Finset.sum_congr rfl fun k _ => by rw [idx25, v24_at x0 x1 x2 qr kr hq hk]

omit hq hk in
/-- The number of positives of each row. -/
theorem v26_at (i : Fin 8192) :
    val_main_v26 (F := Ideal) x2 (ix1 i) = ((∑ j, pos (fun i => x2 (ix1 i)) i j : ℝ) : EReal) := by
  rw [val_main_v26_apply, val_main_cst_4_apply, Ideal.ofBits_def, Ideal.ofBits_zero_f32, zero_add,
    Cert.RealSums.coe_sum]
  exact Finset.sum_congr rfl fun k _ => by rw [idx26, v5_at]

/-- The rows' means over their positives. -/
theorem v27_at (i : Fin 8192) :
    val_main_v27 (F := Ideal) x0 x1 x2 (ix1 i) = ((refRow qr kr (fun i => x2 (ix1 i)) i : ℝ) : EReal) := by
  rw [val_main_v27_apply, v25_at x0 x1 x2 qr kr hq hk, v26_at, Ideal.hostDivf_def,
    Ideal.div_coe (posCount_pos _ i).ne', ← EReal.coe_mul, mul_one_div]
  rfl

/-- Minus the rows' means. -/
theorem v29_at (i : Fin 8192) :
    val_main_v29 (F := Ideal) x0 x1 x2 (ix1 i) = (((-1) * refRow qr kr (fun i => x2 (ix1 i)) i : ℝ) : EReal) := by
  rw [val_main_v29_apply, val_main_v28_apply, val_main_cst_5_apply, v27_at x0 x1 x2 qr kr hq hk, Ideal.mulf_def,
    Ideal.ofBits_def, ofBits_negOne, ← EReal.coe_mul]

/-- Their sum over the rows. -/
theorem v30_at (c : S_.Idx) :
    val_main_v30 (F := Ideal) x0 x1 x2 c = ((∑ i, (-1) * refRow qr kr (fun i => x2 (ix1 i)) i : ℝ) : EReal) := by
  rw [val_main_v30_apply, val_main_cst_6_apply, Ideal.ofBits_def, Ideal.ofBits_zero_f32, zero_add,
    Cert.RealSums.coe_sum, ← Equiv.sum_comp rowEquiv]
  exact Finset.sum_congr rfl fun i _ => v29_at x0 x1 x2 qr kr hq hk i

end Stages3

/-- The dense program's result is the dense arrangement of the loss: the mean over the rows of minus the rows' means. -/
theorem result (x0 x1 : (⟨S8192x1, .f32⟩ : BufTy).Contents (Elt Ideal)) (x2 : (⟨S8192, .i32⟩ : BufTy).Contents (Elt Ideal))
    (qr kr : Fin 8192 → ℝ)
    (hq : ∀ i : Fin 8192, x0 (ix2 i (0 : Fin 1)) = ((qr i : ℝ) : EReal))
    (hk : ∀ i : Fin 8192, x1 (ix2 i (0 : Fin 1)) = ((kr i : ℝ) : EReal)) :
    Cert.ReferenceIdeal.Read.val_main_v31 (F := Ideal) x0 x1 x2
      = fun _ => ((Cert.PosLogSum.refLoss qr kr (fun i => x2 (ix1 i)) : ℝ) : EReal) := by
  funext c
  rw [val_main_v31_apply, val_main_cst_7_apply, v30_at x0 x1 x2 qr kr hq hk, Ideal.hostDivf_def, Ideal.ofBits_def,
    ofBits_8192, Ideal.div_coe (by norm_num : (8192 : ℝ) ≠ 0), ← EReal.coe_mul, mul_one_div]
  rfl

end Cert.RefValue

end
-- ==== Proof.KerOpen.lean ====
/-
  The tiled kernel's body, read back as values.

  At one grid point the body loads the largest and the smallest column feature, the point's 1024 row features and row
  labels, then walks the 8192 columns in four chunks of 2048, carrying a 1024-vector of partial sums; it stores the
  logarithm of the final carry. Two facts are read off the body's run here, each once: what one chunk adds to the carry
  (a function of the carry and of the chunk's 2048 column features and labels), and what the point leaves in the output
  block (the logarithm of the carry after the fourth chunk, started from zero).
-/
import proofs.«412339_j80324478370482_3_alg».proof.Proof.Gen.KernelIdeal.Frame
import Idealize.ShloMosaic.Lib.Pipeline.Value

set_option maxRecDepth 16384

noncomputable section

namespace Cert.KernelIdeal.KerOpen

open Cert.KernelIdeal Cert.KernelIdeal.Gen
open Idealize.ShloMosaic Idealize.ShloMosaic.TcCoe Idealize.ShloMosaic.Tactic
open Idealize.SL Idealize.SL.Sem

variable {F : FTy → Type} [FloatOps F] [Named F]

theorem hz : (![0, 0] : Fin 2 → Nat) = fun _ => 0 := funext fun a => by fin_cases a <;> rfl

/-- Chunk `k` of a row of 8192 entries: the 2048 entries from column `2048 k` on. -/
abbrev chunk {e : EltTy} (X : S1x8192.Idx → Elt F e) (k : Fin k0_t1_loop.trips) : S1x2048.Idx → Elt F e :=
  View.ld X (Rect.unit (s := S1x8192) (k0_off1 k) S1x2048.size (k0_off1_inb k))

/-- One chunk's step: the new carry is the chunk's payload of the old carry and of chunk `k` of the column features
    and of the column labels. -/
theorem trip_eq (𝒱 : Variants) (c : Dev nD) (bd : Option 𝒱.V) (i : grid0.Coords) (arg1 : Memref sig .tc .vmem S1024x1 .f32) (harg1 : arg1.IsWhole) (arg2 : Memref sig .tc .vmem S1x8192 .f32) (harg2 : arg2.IsWhole) (arg3 : Memref sig .tc .vmem S1024x1 .i32) (harg3 : arg3.IsWhole) (arg4 : Memref sig .tc .vmem S1x8192 .i32) (harg4 : arg4.IsWhole) (arg5 : Memref sig .tc .vmem S1x1 .f32) (harg5 : arg5.IsWhole) (arg6 : Memref sig .tc .vmem S1x1 .f32) (harg6 : arg6.IsWhole) (arg7 : Memref sig .tc .vmem S1024x1 .f32) (harg7 : arg7.IsWhole)
    (v0 : Vec F S1x1 .f32) (v2 : Vec F S1x1 .f32) (v4 : Vec F S1024x1 .f32) (v12 : Vec F S1024x1 .i32)
    (x1 : Vec F S1x8192 .f32) (x3 : Vec F S1x8192 .i32) (k : Fin k0_t1_loop.trips) (acc : FVec F S1024x1 .f32) :
    tripR_k0_t1 (F := F) 𝒱 c bd i arg1 harg1 arg2 harg2 arg3 harg3 arg4 harg4 arg5 harg5 arg6 harg6 arg7 harg7 v0 v2 v4 v12 (harg2.unread x1) (harg4.unread x3) k acc
      = k0_pay2 v0 v2 v4 v12 acc (chunk x1 k) (chunk x3 k) := by
  unfold tripR_k0_t1
  unfold trip_k0_t1
  dsimp only
  simp only [View.readAt_eq_ld, harg2.read_unread, harg4.read_unread]

/-- The loop makes four trips. -/
theorem trips_eq : k0_t1_loop.trips = 4 := by decide

/-- What a point leaves in the output block: the logarithm payload of the carry after the last chunk, the carry
    started from the zero vector. -/
theorem out_eq (c : Dev nD) (i : grid0.Coords) (arg1 : Memref sig .tc .vmem S1024x1 .f32) (harg1 : arg1.IsWhole) (arg2 : Memref sig .tc .vmem S1x8192 .f32) (harg2 : arg2.IsWhole) (arg3 : Memref sig .tc .vmem S1024x1 .i32) (harg3 : arg3.IsWhole) (arg4 : Memref sig .tc .vmem S1x8192 .i32) (harg4 : arg4.IsWhole) (arg5 : Memref sig .tc .vmem S1x1 .f32) (harg5 : arg5.IsWhole) (arg6 : Memref sig .tc .vmem S1x1 .f32) (harg6 : arg6.IsWhole) (arg7 : Memref sig .tc .vmem S1024x1 .f32) (harg7 : arg7.IsWhole)
    (x0 : Vec F S1024x1 .f32) (x1 : Vec F S1x8192 .f32) (x2 : Vec F S1024x1 .i32) (x3 : Vec F S1x8192 .i32) (x4 : Vec F S1x1 .f32) (x5 : Vec F S1x1 .f32) :
    out0_A_6 (F := F) c i arg1 harg1 arg2 harg2 arg3 harg3 arg4 harg4 arg5 harg5 arg6 harg6 arg7 harg7 x0 x1 x2 x3 x4 x5
      = k0_pay3 (st_k0_t1 Variants.none c none i arg1 harg1 arg2 harg2 arg3 harg3 arg4 harg4 arg5 harg5 arg6 harg6 arg7 harg7 x4 x5 x0 x2 (harg2.unread x1) (harg4.unread x3) k0_pay1 k0_t1_loop.trips) := by
  unfold out0_A_6
  rw [View.read_writes_eq_canon _ _ _ (cover0_A_6 c i arg1 harg1 arg2 harg2 arg3 harg3 arg4 harg4 arg5 harg5 arg6 harg6 arg7 harg7 x0 x1 x2 x3 x4 x5)]
  unfold kernelRun0_A
  dsimp only
  rw [View.canon_unit_zero hz]
  simp only [View.readAt_eq_ld, harg1.read_unread, harg3.read_unread, harg5.read_unread, harg6.read_unread,
    View.ld_unit_zero (S := S1024x1) hz, View.ld_unit_zero (S := S1x1) hz]

end Cert.KernelIdeal.KerOpen

end
-- ==== Proof.KerPayload.lean ====
/-
  The chunk payload at a row, over the extended reals.

  With `c r` the row feature times the reciprocal temperature and `M r` the larger of `c r` times the largest and times
  the smallest column feature, one chunk adds to row `r` of the carry the sum over the chunk's 2048 columns `j` of
  `exp (c r · k j − M r)` where column `j` carries row `r`'s label, and of zero elsewhere.
-/
import proofs.«412339_j80324478370482_3_alg».proof.Proof.Gen.KernelIdeal.Skeleton
import proofs.«412339_j80324478370482_3_alg».proof.Proof.LibColumn
import Idealize.ShloMosaic.Lib.Pipeline.Value
import Idealize.ShloMosaic.Lib.ValueIdx
import Idealize.ShloMosaic.Lib.ValueLayout
import Idealize.ShloMosaic.Lib.StableHlo.Predicate
import Idealize.ShloMosaic.PureOps.Ideal.Laws
import Idealize.ShloMosaic.PureOps.IdealRules

noncomputable section

namespace Cert.KernelIdeal.KerPayload

open Cert.KernelIdeal Cert.KernelIdeal.Gen
open Idealize.ShloMosaic Idealize.ShloMosaic.TcCoe Idealize.ShloMosaic.ValueIdx Idealize.ShloMosaic.Column

/-- The named reciprocal temperature is the rational the certificate's table gives it. -/
theorem invT_named : Named.named (F := Ideal) κ "inv_T" (φ := .f32) 0x41649249#32 = ((134217728 / 9395241 : ℝ) : EReal) :=
  IdealRules.named_const.ideal_named_scalar _ _ _ _ rfl

/-- The scaled row feature. -/
def cRow (v4 : Vec Ideal S1024x1 .f32) (r : Fin 1024) : EReal :=
  v4 (ix2 r (0 : Fin 1)) * ((134217728 / 9395241 : ℝ) : EReal)

/-- The row's shift. -/
def mRow (v0 v2 : Vec Ideal S1x1 .f32) (v4 : Vec Ideal S1024x1 .f32) (r : Fin 1024) : EReal :=
  max (cRow v4 r * v0 (ix2 (0 : Fin 1) (0 : Fin 1))) (cRow v4 r * v2 (ix2 (0 : Fin 1) (0 : Fin 1)))

/-- Column `j` of the chunk, at row `r`. -/
def termE (v0 v2 : Vec Ideal S1x1 .f32) (v4 : Vec Ideal S1024x1 .f32) (v12 : Vec Ideal S1024x1 .i32)
    (v22 : Vec Ideal S1x2048 .f32) (v25 : Vec Ideal S1x2048 .i32) (r : Fin 1024) (j : Fin 2048) : EReal :=
  if v12 (ix2 r (0 : Fin 1)) = v25 (ix2 (0 : Fin 1) j) then Ideal.exp (cRow v4 r * v22 (ix2 (0 : Fin 1) j) - mRow v0 v2 v4 r) else 0

/-- A comparison, an exponential read at an index. -/
theorem cmpi_apply {s : Shape} {w : Nat} (p : CmpIPredicate) (a b : IVec s w) (i : s.Idx) : cmpi p a b i = IntOp.cmpi p (a i) (b i) := rfl
theorem exp_apply {s : Shape} (a : FVec Ideal s .f32) (i : s.Idx) : exp a i = Ideal.exp (a i) := rfl
theorem log_apply {s : Shape} (a : FVec Ideal s .f32) (i : s.Idx) : log a i = Ideal.log (a i) := rfl

/-- The row-and-column index a lane sum over the columns reads. -/
theorem lift_eq (r : Fin 1024) (j : Fin 2048) : reduces_S1024x2048_S1024.lift (ix1 r) j = ix2 r j :=
  funext fun a => Fin.ext (by match a with | ⟨0, _⟩ => rfl | ⟨1, _⟩ => rfl)

theorem pay2_apply (v0 v2 : Vec Ideal S1x1 .f32) (v4 : Vec Ideal S1024x1 .f32) (v12 : Vec Ideal S1024x1 .i32)
    (acc : FVec Ideal S1024x1 .f32) (v22 : Vec Ideal S1x2048 .f32) (v25 : Vec Ideal S1x2048 .i32) (r : Fin 1024) :
    k0_pay2 (F := Ideal) v0 v2 v4 v12 acc v22 v25 (ix2 r (0 : Fin 1))
      = acc (ix2 r (0 : Fin 1)) + ∑ j : Fin 2048, termE v0 v2 v4 v12 v22 v25 r j := by
  unfold k0_pay2
  dsimp only
  refine congrArg (acc (ix2 r (0 : Fin 1)) + ·) ?_
  refine (shapeCast_a_a1_apply _ shapeCasts_S1024_S1024x1 r (0 : Fin 1)).trans ?_
  refine (Ideal.multiReduction_add_single _ _ reduces_S1024x2048_S1024 _ _ (ix1 r)).trans ?_
  refine Finset.sum_congr rfl fun (j : Fin 2048) _ => ?_
  rw [lift_eq r j]
  simp only [select_apply, cmpi_apply, exp_apply, broadcast_apply, mulf_apply, subf_apply, maximumf_apply,
    broadcastTo_a1_ab_apply, broadcastTo_1b_ab_apply, shapeCast_self, invT_named, Ideal.ofBits_def, Ideal.ofBits_zero_f32]
  unfold termE cRow mRow Scalar.select
  by_cases h : v12 (ix2 r (0 : Fin 1)) = v25 (ix2 (0 : Fin 1) j)
  · rw [if_pos h, if_pos (show IntOp.cmpi CmpIPredicate.eq (v12 (ix2 r (0 : Fin 1))) (v25 (ix2 (0 : Fin 1) j)) = 1 from
      StableHlo.Predicate.cmpi_eq_iff.mpr h)]
    rfl
  · rw [if_neg h, if_neg (show ¬IntOp.cmpi CmpIPredicate.eq (v12 (ix2 r (0 : Fin 1))) (v25 (ix2 (0 : Fin 1) j)) = 1 from
      fun h' => h (StableHlo.Predicate.cmpi_eq_iff.mp h'))]

/-- The carry starts at zero. -/
theorem pay1_apply (i : S1024x1.Idx) : (k0_pay1 (F := Ideal)) i = 0 := by
  unfold k0_pay1
  simp only [broadcast_apply]
  exact Ideal.ofBits_zero_f32

/-- The stored value is the carry's logarithm. -/
theorem pay3_apply (v16 : FVec Ideal S1024x1 .f32) (i : S1024x1.Idx) : k0_pay3 (F := Ideal) v16 i = Ideal.log (v16 i) := rfl

end Cert.KernelIdeal.KerPayload

end
-- ==== Proof.KerBlock.lean ====
/-
  One grid point's output block, for real features.

  If the point's row block holds the real features `q i` and labels of its rows, the column row the real features `k j` and
  the labels of all 8192 columns, and the two scalars the largest and the smallest `k`, then after the four chunks row
  `i`'s carry is the real sum of its positives' shifted exponentials, and the stored value its logarithm.
-/
import proofs.«412339_j80324478370482_3_alg».proof.Proof.KerOpen
import proofs.«412339_j80324478370482_3_alg».proof.Proof.KerPayload
import proofs.«412339_j80324478370482_3_alg».proof.Proof.Spec
import proofs.«412339_j80324478370482_3_alg».proof.Proof.Law
import proofs.«412339_j80324478370482_3_alg».proof.Proof.LibRealSums

set_option maxRecDepth 16384

noncomputable section

namespace Cert.KernelIdeal.KerBlock

open Cert.KernelIdeal Cert.KernelIdeal.Gen Cert.KernelIdeal.KerOpen Cert.KernelIdeal.KerPayload Cert.PosLogSum
open Idealize.ShloMosaic Idealize.ShloMosaic.TcCoe Idealize.ShloMosaic.ValueIdx
open Idealize.SL Idealize.SL.Sem

/-- The chunk of a trip, as one of the four. -/
def chunkIx (k : Fin k0_t1_loop.trips) : Fin 4 := ⟨k.val, trips_eq ▸ k.isLt⟩

/-- Entry `j` of chunk `k` of a row is the row's entry at column `j` of that chunk. -/
theorem chunk_apply {e : EltTy} (X : S1x8192.Idx → Elt Ideal e) (k : Fin k0_t1_loop.trips) (j : Fin 2048) :
    chunk (F := Ideal) X k (ix2 (0 : Fin 1) j) = X (ix2 (0 : Fin 1) (col (chunkIx k) j)) := by
  show X ((Rect.unit (s := S1x8192) (k0_off1 k) S1x2048.size (k0_off1_inb k)).idx (ix2 (0 : Fin 1) j)) = _
  refine congrArg X (funext fun a => Fin.ext ?_)
  have hoff := k0_off1_eq k
  match a with
  | ⟨0, _⟩ =>
    show (k0_off1 k) 0 + 1 * 0 = 0
    rw [hoff]; rfl
  | ⟨1, _⟩ =>
    show (k0_off1 k) 1 + 1 * j.val = k.val * 2048 + j.val
    rw [hoff]
    show 2048 * k.val + 1 * j.val = k.val * 2048 + j.val
    omega

section
variable (qr kr : Fin 8192 → ℝ) (lab : Fin 8192 → BitVec 32) (i : Fin 8192) (r : Fin 1024)
variable (x0 : Vec Ideal S1024x1 .f32) (x1 : Vec Ideal S1x8192 .f32) (x2 : Vec Ideal S1024x1 .i32) (x3 : Vec Ideal S1x8192 .i32)
variable (x4 x5 : Vec Ideal S1x1 .f32)

/-- One column's term is the real term of the tiled arrangement. -/
theorem term_eq (h0 : x0 (ix2 r (0 : Fin 1)) = ((qr i : ℝ) : EReal)) (h2 : x2 (ix2 r (0 : Fin 1)) = lab i)
    (h1 : ∀ j : Fin 8192, x1 (ix2 (0 : Fin 1) j) = ((kr j : ℝ) : EReal)) (h3 : ∀ j : Fin 8192, x3 (ix2 (0 : Fin 1) j) = lab j)
    (h4 : x4 (ix2 (0 : Fin 1) (0 : Fin 1)) = ((kmax kr : ℝ) : EReal)) (h5 : x5 (ix2 (0 : Fin 1) (0 : Fin 1)) = ((kmin kr : ℝ) : EReal))
    (k : Fin k0_t1_loop.trips) (j : Fin 2048) :
    termE x4 x5 x0 x2 (chunk x1 k) (chunk x3 k) r j = ((kerTerm qr kr lab i (col (chunkIx k) j) : ℝ) : EReal) := by
  unfold termE mRow cRow kerTerm shift invT
  rw [chunk_apply, chunk_apply, h0, h2, h1, h3, h4, h5]
  by_cases h : lab i = lab (col (chunkIx k) j)
  · rw [if_pos h, if_pos h]
    simp only [← EReal.coe_mul, ← Cert.RealSums.coe_max, ← EReal.coe_sub, Ideal.exp_coe]
  · rw [if_neg h, if_neg h, EReal.coe_zero]

/-- The tiled arrangement's chunk sum at a trip number (zero past the fourth). -/
def chunkN (a : ℕ) : ℝ := if h : a < 4 then kerChunk qr kr lab i ⟨a, h⟩ else 0

/-- Row `r` of the carry before trip `n`: the real sum of the chunks before it. -/
theorem carry_row (c : Dev nD) (i' : grid0.Coords) (arg1 : Memref sig .tc .vmem S1024x1 .f32) (harg1 : arg1.IsWhole) (arg2 : Memref sig .tc .vmem S1x8192 .f32) (harg2 : arg2.IsWhole) (arg3 : Memref sig .tc .vmem S1024x1 .i32) (harg3 : arg3.IsWhole) (arg4 : Memref sig .tc .vmem S1x8192 .i32) (harg4 : arg4.IsWhole) (arg5 : Memref sig .tc .vmem S1x1 .f32) (harg5 : arg5.IsWhole) (arg6 : Memref sig .tc .vmem S1x1 .f32) (harg6 : arg6.IsWhole) (arg7 : Memref sig .tc .vmem S1024x1 .f32) (harg7 : arg7.IsWhole)
    (h0 : x0 (ix2 r (0 : Fin 1)) = ((qr i : ℝ) : EReal)) (h2 : x2 (ix2 r (0 : Fin 1)) = lab i)
    (h1 : ∀ j : Fin 8192, x1 (ix2 (0 : Fin 1) j) = ((kr j : ℝ) : EReal)) (h3 : ∀ j : Fin 8192, x3 (ix2 (0 : Fin 1) j) = lab j)
    (h4 : x4 (ix2 (0 : Fin 1) (0 : Fin 1)) = ((kmax kr : ℝ) : EReal)) (h5 : x5 (ix2 (0 : Fin 1) (0 : Fin 1)) = ((kmin kr : ℝ) : EReal)) :
    ∀ n : ℕ, n ≤ 4 → st_k0_t1 (F := Ideal) Variants.none c none i' arg1 harg1 arg2 harg2 arg3 harg3 arg4 harg4 arg5 harg5 arg6 harg6 arg7 harg7 x4 x5 x0 x2 (harg2.unread x1) (harg4.unread x3) (k0_pay1 (F := Ideal)) n (ix2 r (0 : Fin 1))
      = ((∑ a ∈ Finset.range n, chunkN qr kr lab i a : ℝ) : EReal)
  | 0, _ => by
    show (k0_pay1 (F := Ideal)) (ix2 r (0 : Fin 1)) = _
    rw [pay1_apply, Finset.range_zero, Finset.sum_empty, EReal.coe_zero]
  | n + 1, hn => by
    have hn' : n < k0_t1_loop.trips := by rw [trips_eq]; omega
    have hs := st_k0_t1_succ (F := Ideal) Variants.none c none i' arg1 harg1 arg2 harg2 arg3 harg3 arg4 harg4 arg5 harg5 arg6 harg6 arg7 harg7 x4 x5 x0 x2 (harg2.unread x1) (harg4.unread x3) (k0_pay1 (F := Ideal)) ⟨n, hn'⟩
    refine (congrFun hs (ix2 r (0 : Fin 1))).trans ?_
    rw [trip_eq, pay2_apply]
    show st_k0_t1 (F := Ideal) Variants.none c none i' arg1 harg1 arg2 harg2 arg3 harg3 arg4 harg4 arg5 harg5 arg6 harg6 arg7 harg7 x4 x5 x0 x2 (harg2.unread x1) (harg4.unread x3) (k0_pay1 (F := Ideal)) n (ix2 r (0 : Fin 1)) + _ = _
    rw [carry_row c i' arg1 harg1 arg2 harg2 arg3 harg3 arg4 harg4 arg5 harg5 arg6 harg6 arg7 harg7 h0 h2 h1 h3 h4 h5 n (by omega),
      Finset.sum_congr rfl (fun j _ => term_eq qr kr lab i r x0 x1 x2 x3 x4 x5 h0 h2 h1 h3 h4 h5 ⟨n, hn'⟩ j),
      ← Cert.RealSums.coe_sum, ← EReal.coe_add, Finset.sum_range_succ]
    have hc : chunkN qr kr lab i n = ∑ j : Fin 2048, kerTerm qr kr lab i (col (chunkIx ⟨n, hn'⟩) j) := by
      unfold chunkN
      rw [dif_pos (by omega : n < 4)]
      rfl
    rw [hc]

/-- Row `r` of the block a point stores: the logarithm of row `i`'s sum of positives. -/
theorem block_row (c : Dev nD) (i' : grid0.Coords) (arg1 : Memref sig .tc .vmem S1024x1 .f32) (harg1 : arg1.IsWhole) (arg2 : Memref sig .tc .vmem S1x8192 .f32) (harg2 : arg2.IsWhole) (arg3 : Memref sig .tc .vmem S1024x1 .i32) (harg3 : arg3.IsWhole) (arg4 : Memref sig .tc .vmem S1x8192 .i32) (harg4 : arg4.IsWhole) (arg5 : Memref sig .tc .vmem S1x1 .f32) (harg5 : arg5.IsWhole) (arg6 : Memref sig .tc .vmem S1x1 .f32) (harg6 : arg6.IsWhole) (arg7 : Memref sig .tc .vmem S1024x1 .f32) (harg7 : arg7.IsWhole)
    (h0 : x0 (ix2 r (0 : Fin 1)) = ((qr i : ℝ) : EReal)) (h2 : x2 (ix2 r (0 : Fin 1)) = lab i)
    (h1 : ∀ j : Fin 8192, x1 (ix2 (0 : Fin 1) j) = ((kr j : ℝ) : EReal)) (h3 : ∀ j : Fin 8192, x3 (ix2 (0 : Fin 1) j) = lab j)
    (h4 : x4 (ix2 (0 : Fin 1) (0 : Fin 1)) = ((kmax kr : ℝ) : EReal)) (h5 : x5 (ix2 (0 : Fin 1) (0 : Fin 1)) = ((kmin kr : ℝ) : EReal)) :
    out0_A_6 (F := Ideal) c i' arg1 harg1 arg2 harg2 arg3 harg3 arg4 harg4 arg5 harg5 arg6 harg6 arg7 harg7 x0 x1 x2 x3 x4 x5 (ix2 r (0 : Fin 1))
      = ((Real.log (kerPosSum qr kr lab i) : ℝ) : EReal) := by
  rw [out_eq, pay3_apply]
  have e : st_k0_t1 (F := Ideal) Variants.none c none i' arg1 harg1 arg2 harg2 arg3 harg3 arg4 harg4 arg5 harg5 arg6 harg6 arg7 harg7 x4 x5 x0 x2 (harg2.unread x1) (harg4.unread x3) (k0_pay1 (F := Ideal)) k0_t1_loop.trips = st_k0_t1 (F := Ideal) Variants.none c none i' arg1 harg1 arg2 harg2 arg3 harg3 arg4 harg4 arg5 harg5 arg6 harg6 arg7 harg7 x4 x5 x0 x2 (harg2.unread x1) (harg4.unread x3) (k0_pay1 (F := Ideal)) 4 := congrArg _ trips_eq
  rw [e, carry_row qr kr lab i r x0 x1 x2 x3 x4 x5 c i' arg1 harg1 arg2 harg2 arg3 harg3 arg4 harg4 arg5 harg5 arg6 harg6 arg7 harg7 h0 h2 h1 h3 h4 h5 4 le_rfl]
  have hs : (∑ a ∈ Finset.range 4, chunkN qr kr lab i a) = kerPosSum qr kr lab i := by
    unfold kerPosSum
    rw [Finset.sum_range]
    exact Finset.sum_congr rfl fun a _ => dif_pos a.isLt
  rw [hs, Ideal.log_coe, if_neg (not_le.mpr (kerPosSum_pos qr kr lab i))]

end

end Cert.KernelIdeal.KerBlock

end
-- ==== Proof.KerHost.lean ====
/-
  The host operations around the tiled kernel, read at an index.

  Before the kernel: the column features re-laid as one row, the labels re-laid as a column and as a row, and the largest
  and the smallest column feature, each as a one-by-one array. After it: the mean of the 8192 stored logarithms.
-/
import proofs.«412339_j80324478370482_3_alg».proof.Proof.Gen.KernelIdeal
import proofs.«412339_j80324478370482_3_alg».proof.Proof.Spec
import proofs.«412339_j80324478370482_3_alg».proof.Proof.Law
import proofs.«412339_j80324478370482_3_alg».proof.Proof.LibRealSums
import proofs.«412339_j80324478370482_3_alg».proof.Proof.LibColumn
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.KerHost

open Cert.KernelIdeal Cert.KernelIdeal.Gen Cert.PosLogSum
open Idealize.ShloMosaic Idealize.ShloMosaic.ValueIdx

open scoped BigOperators

/-! ## General steps: maxima and minima of reals inside the extended reals, the two infinities' words, the column's indices -/

/-- The inclusion of the reals carries the smaller of two reals to the smaller of the inclusions. -/
theorem coe_min (a b : ℝ) : ((min a b : ℝ) : EReal) = min (a : EReal) (b : EReal) :=
  EReal.coe_strictMono.monotone.map_min

/-- A maximum of finitely many reals, folded from −∞ inside the extended reals over a nonempty set, is the
    inclusion of the real supremum. -/
theorem fold_max_coe {ι : Type*} (s : Finset ι) (hs : s.Nonempty) (g : ι → ℝ) :
    s.fold max (⊥ : EReal) (fun i => ((g i : ℝ) : EReal)) = ((s.sup' hs g : ℝ) : EReal) := by
  induction hs using Finset.Nonempty.cons_induction with
  | singleton a => rw [Finset.fold_singleton, Finset.sup'_singleton, max_eq_left bot_le]
  | cons a s ha hs ih => rw [Finset.fold_cons, ih, Finset.sup'_cons hs, ← Cert.RealSums.coe_max]

/-- A minimum of finitely many reals, folded from +∞, is the inclusion of the real infimum. -/
theorem fold_min_coe {ι : Type*} (s : Finset ι) (hs : s.Nonempty) (g : ι → ℝ) :
    s.fold min (⊤ : EReal) (fun i => ((g i : ℝ) : EReal)) = ((s.inf' hs g : ℝ) : EReal) := by
  induction hs using Finset.Nonempty.cons_induction with
  | singleton a => rw [Finset.fold_singleton, Finset.inf'_singleton, min_eq_left le_top]
  | cons a s ha hs ih => rw [Finset.fold_cons, ih, Finset.inf'_cons hs, ← coe_min]

/-- The f32 word `0x7F800000` denotes +∞. -/
theorem ofBits_posInf_f32 : Ideal.ofBits .f32 0x7F800000#32 = (⊤ : EReal) := by
  simp [Ideal.ofBits, Ideal.ieee]

/-- The f32 word `0x46000000` denotes 8192. -/
theorem ofBits_8192 : Ideal.ofBits .f32 0x46000000#32 = (((8192 : ℝ)) : EReal) := by
  simp [Ideal.ofBits, Ideal.ieee, -EReal.coe_mul]; norm_num

/-- A column's index set is its row range. -/
def colEquiv : Fin 8192 ≃ S8192x1.Idx where
  toFun i := ix2 i (0 : Fin 1)
  invFun j := j 0
  left_inv _ := rfl
  right_inv j := by
    funext a
    match a with
    | ⟨0, _⟩ => rfl
    | ⟨1, _⟩ => exact Fin.ext (by have h := idx2_lt1 j; show (0 : ℕ) = (j 1).val; omega)

/-- The scalar shape's one entry, re-laid as a one-by-one array. -/
theorem scalar11_apply {α : Type} (r : S_.Idx → α) :
    shapeCast S1x1 r shapeCasts_S_S1x1 (ix2 (0 : Fin 1) (0 : Fin 1)) = r ix0 :=
  shapeCast_apply r shapeCasts_S_S1x1 _ _ (by
    have h := (S_.rowMajor ix0).isLt
    have e : S_.numel = 1 := rfl
    rw [Shape.rowMajor_val_two]
    show (S_.rowMajor ix0).val = 0 * 1 + 0
    omega)

/-- A fold over both axes of a column of reals is the fold over its rows. -/
theorem reduce_col (f : Ideal .f32 → Ideal .f32 → Ideal .f32) [Std.Commutative f] [Std.Associative f]
    (x : FVec Ideal S8192x1 .f32) (kr : Fin 8192 → ℝ)
    (hk : ∀ j : Fin 8192, x (ix2 j (0 : Fin 1)) = ((kr j : ℝ) : EReal)) (init : FVec Ideal S_ .f32) :
    Host.reduce f x init reducesTo_S8192x1_S_d0_1 h_S_ ix0
      = (Finset.univ : Finset (Fin 8192)).fold f (init (Shape.Idx.first h_S_)) (fun j => (((kr j : ℝ) : EReal) : Ideal .f32)) := by
  rw [Host.reduce_eq_fold, Finset.filter_true_of_mem (fun i _ => funext fun b => b.elim0),
    ← Finset.map_univ_equiv colEquiv, Finset.fold_map]
  exact congrArg (fun g => Finset.fold f _ g Finset.univ) (funext fun j => hk j)

/-- The column features as one row: entry `j` of the row is entry `j` of the column. -/
theorem krow_apply (x : FVec Ideal S8192x1 .f32) (j : Fin 8192) :
    shapeCast S1x8192 x shapeCasts_S8192x1_S1x8192 (ix2 (0 : Fin 1) j) = x (ix2 j (0 : Fin 1)) :=
  shapeCast_apply x shapeCasts_S8192x1_S1x8192 _ _ (by
    rw [Shape.rowMajor_val_two, Shape.rowMajor_val_two]
    show j.val * 1 + 0 = 0 * 8192 + j.val
    omega)

/-- The labels as a column. -/
theorem labcol_apply (x : IVec S8192 32) (i : Fin 8192) :
    shapeCast S8192x1 x shapeCasts_S8192_S8192x1 (ix2 i (0 : Fin 1)) = x (ix1 i) :=
  Column.shapeCast_a_a1_apply x shapeCasts_S8192_S8192x1 i (0 : Fin 1)

/-- The labels as a row. -/
theorem labrow_apply (x : IVec S8192 32) (j : Fin 8192) :
    shapeCast S1x8192 x shapeCasts_S8192_S1x8192 (ix2 (0 : Fin 1) j) = x (ix1 j) :=
  shapeCast_a_1a_apply x shapeCasts_S8192_S1x8192 (0 : Fin 1) j

/-- The largest of real column features, as the one-by-one array the kernel is handed. -/
theorem kmax_apply (x : FVec Ideal S8192x1 .f32) (kr : Fin 8192 → ℝ)
    (hk : ∀ j : Fin 8192, x (ix2 j (0 : Fin 1)) = ((kr j : ℝ) : EReal)) :
    shapeCast S1x1 (Host.reduce FloatOps.maximumf x (constant (F := Ideal) S_ .f32 0xFF800000#32) reducesTo_S8192x1_S_d0_1 h_S_)
        shapeCasts_S_S1x1 (ix2 (0 : Fin 1) (0 : Fin 1)) = ((kmax kr : ℝ) : EReal) := by
  rw [scalar11_apply, reduce_col FloatOps.maximumf x kr hk, constant_apply, Column.ofBits_negInf_f32]
  exact fold_max_coe Finset.univ Finset.univ_nonempty kr

/-- The smallest. -/
theorem kmin_apply (x : FVec Ideal S8192x1 .f32) (kr : Fin 8192 → ℝ)
    (hk : ∀ j : Fin 8192, x (ix2 j (0 : Fin 1)) = ((kr j : ℝ) : EReal)) :
    shapeCast S1x1 (Host.reduce FloatOps.minimumf x (constant (F := Ideal) S_ .f32 0x7F800000#32) reducesTo_S8192x1_S_d0_1 h_S_)
        shapeCasts_S_S1x1 (ix2 (0 : Fin 1) (0 : Fin 1)) = ((kmin kr : ℝ) : EReal) := by
  rw [scalar11_apply, reduce_col FloatOps.minimumf x kr hk, constant_apply, ofBits_posInf_f32]
  exact fold_min_coe Finset.univ Finset.univ_nonempty kr

/-- The mean of the stored logarithms, times one, is the tiled loss. -/
theorem tail_value (y : FVec Ideal S8192x1 .f32) (qr kr : Fin 8192 → ℝ) (lab : Fin 8192 → BitVec 32)
    (hy : ∀ i : Fin 8192, y (ix2 i (0 : Fin 1)) = ((Real.log (kerPosSum qr kr lab i) : ℝ) : EReal)) :
    mulf (constant (F := Ideal) S_ .f32 0x3F800000#32)
        (Host.divf (Host.reduceAdd y (constant (F := Ideal) S_ .f32 0x00000000#32) reducesTo_S8192x1_S_d0_1 h_S_)
          (constant (F := Ideal) S_ .f32 0x46000000#32))
      = fun _ => ((kerLoss qr kr lab : ℝ) : EReal) := by
  funext c
  have hsum : Host.reduceAdd y (constant (F := Ideal) S_ .f32 0x00000000#32) reducesTo_S8192x1_S_d0_1 h_S_ c
      = ((∑ i, Real.log (kerPosSum qr kr lab i) : ℝ) : EReal) := by
    simp only [Host.reduceAdd, Ideal.hostReduceAdd_def]
    rw [Ideal.hostReduceAdd_total reducesTo_S8192x1_S_d0_1 (fun b => b.elim0) y _ c, constant_apply,
      Ideal.ofBits_zero_f32, zero_add, Cert.RealSums.coe_sum, ← Equiv.sum_comp colEquiv]
    exact Finset.sum_congr rfl fun i _ => hy i
  rw [mulf_apply, constant_apply, Column.ofBits_one_f32, one_mul]
  show Ideal.div (Host.reduceAdd y (constant (F := Ideal) S_ .f32 0x00000000#32) reducesTo_S8192x1_S_d0_1 h_S_ c)
      (constant (F := Ideal) S_ .f32 0x46000000#32 c) = _
  rw [hsum, constant_apply, ofBits_8192, Ideal.div_coe (by norm_num : (8192 : ℝ) ≠ 0), ← EReal.coe_mul, mul_one_div]
  unfold kerLoss
  rw [one_mul]

end Cert.KernelIdeal.KerHost

end
-- ==== Proof.KerArray.lean ====
/-
  The tiled program's run, read: the kernel's result array and the loss computed from it.

  Grid point `t` handles rows `1024 t … 1024 t + 1023`: its row block is those rows of the row features and of the labels
  column, the column row and the labels row are whole at every point, and so are the two one-by-one scalars. Each point's
  output block is therefore the rows' logarithms, the eight blocks tile the result array, and the host's mean over it is
  the tiled loss.
-/
import proofs.«412339_j80324478370482_3_alg».proof.Proof.Gen.KernelIdeal.Frame
import proofs.«412339_j80324478370482_3_alg».proof.Proof.KerBlock
import proofs.«412339_j80324478370482_3_alg».proof.Proof.KerHost
import Idealize.ShloMosaic.Lib.Pipeline.Value
import Idealize.ShloMosaic.Lib.StableHlo.Run
import Idealize.ShloMosaic.Lib.Tactic

set_option maxRecDepth 16384

noncomputable section

namespace Cert.KernelIdeal.KerArray

open Cert.KernelIdeal Cert.KernelIdeal.Gen Cert.KernelIdeal.KerBlock Cert.KernelIdeal.KerHost Cert.PosLogSum
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## The arrays the kernel is handed -/

theorem V_v0 (c : Dev nD) : (V m c main_v0 : S1x8192.Idx → EReal)
    = shapeCast S1x8192 (m ((c : Thread nD τ).loc main_arg1)) shapeCasts_S8192x1_S1x8192 := by
  show StableHlo.after hostOps0 (fun b => m (c, b)) (Proc.devRef .tc main_v0) = _
  after_results
  rfl

theorem V_v1 (c : Dev nD) : (V m c main_v1 : S8192x1.Idx → BitVec 32)
    = shapeCast S8192x1 (m ((c : Thread nD τ).loc main_arg2)) shapeCasts_S8192_S8192x1 := by
  show StableHlo.after hostOps0 (fun b => m (c, b)) (Proc.devRef .tc main_v1) = _
  after_results
  rfl

theorem V_v2 (c : Dev nD) : (V m c main_v2 : S1x8192.Idx → BitVec 32)
    = shapeCast S1x8192 (m ((c : Thread nD τ).loc main_arg2)) shapeCasts_S8192_S1x8192 := by
  show StableHlo.after hostOps0 (fun b => m (c, b)) (Proc.devRef .tc main_v2) = _
  after_results
  rfl

theorem V_v4 (c : Dev nD) : (V m c main_v4 : S1x1.Idx → EReal)
    = shapeCast S1x1 (Host.reduce FloatOps.maximumf (m ((c : Thread nD τ).loc main_arg1)) (constant (F := Ideal) S_ .f32 0xFF800000#32) reducesTo_S8192x1_S_d0_1 h_S_) shapeCasts_S_S1x1 := by
  show StableHlo.after hostOps0 (fun b => m (c, b)) (Proc.devRef .tc main_v4) = _
  after_results
  rfl

theorem V_v6 (c : Dev nD) : (V m c main_v6 : S1x1.Idx → EReal)
    = shapeCast S1x1 (Host.reduce FloatOps.minimumf (m ((c : Thread nD τ).loc main_arg1)) (constant (F := Ideal) S_ .f32 0x7F800000#32) reducesTo_S8192x1_S_d0_1 h_S_) shapeCasts_S_S1x1 := by
  show StableHlo.after hostOps0 (fun b => m (c, b)) (Proc.devRef .tc main_v6) = _
  after_results
  rfl

/-! ## Which block each point takes -/

/-- The printed block indices, decided over the eight points: the row-blocked windows move with the point, the others stay. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-! ## The input blocks at a point, for real features -/

section
variable (c : Dev nD) (qr kr : Fin 8192 → ℝ)
variable (hq : ∀ i : Fin 8192, m ((c : Thread nD τ).loc main_arg0) (ix2 i (0 : Fin 1)) = ((qr i : ℝ) : EReal))
variable (hk : ∀ i : Fin 8192, m ((c : Thread nD τ).loc main_arg1) (ix2 i (0 : Fin 1)) = ((kr i : ℝ) : EReal))

/-- The labels. -/
abbrev labOf : Fin 8192 → BitVec 32 := fun i => m ((c : Thread nD τ).loc main_arg2) (ix1 i)

/-- Row `r` of point `t`'s blocks is row `1024 t + r` of the arrays. -/
def rowOf (t : Fin cfg0.N) (r : Fin 1024) : Fin 8192 :=
  ⟨t.val * 1024 + r.val, by have := t.isLt; have hN : cfg0.N = 8 := N_0; have := r.isLt; omega⟩

/-- The six input blocks at a point, at their literal types. -/
abbrev qblk (t : Fin cfg0.N) : Vec Ideal S1024x1 .f32 := iblk m c 0 t
abbrev kblk (t : Fin cfg0.N) : Vec Ideal S1x8192 .f32 := iblk m c 1 t
abbrev lcblk (t : Fin cfg0.N) : Vec Ideal S1024x1 .i32 := iblk m c 2 t
abbrev lrblk (t : Fin cfg0.N) : Vec Ideal S1x8192 .i32 := iblk m c 3 t
abbrev mxblk (t : Fin cfg0.N) : Vec Ideal S1x1 .f32 := iblk m c 4 t
abbrev mnblk (t : Fin cfg0.N) : Vec Ideal S1x1 .f32 := iblk m c 5 t

include hq in
theorem q_at (t : Fin cfg0.N) (r : Fin 1024) : qblk m c t (ix2 r (0 : Fin 1)) = ((qr (rowOf t r) : ℝ) : EReal) := by
  obtain ⟨e00, e01, -⟩ := idx_facts t
  have hemb : ((cfg0.win 0).blk t).view.emb (ix2 r (0 : Fin 1)) = (ix2 (rowOf t r) (0 : Fin 1) : S8192x1.Idx) := by
    funext a; apply Fin.ext
    match a with
    | ⟨0, _⟩ => show win0_0.index t (0 : Fin 2) * 1024 + 1 * r.val = t.val * 1024 + r.val; rw [e00]; omega
    | ⟨1, _⟩ => show win0_0.index t (1 : Fin 2) * 1 + 1 * 0 = 0; rw [e01]
  show V m c main_arg0 (((cfg0.win 0).blk t).view.emb (ix2 r (0 : Fin 1))) = _
  rw [hemb]
  exact (congrFun (V_main_arg0 m c) _).trans (hq _)

theorem lc_at (t : Fin cfg0.N) (r : Fin 1024) : lcblk m c t (ix2 r (0 : Fin 1)) = labOf m c (rowOf t r) := by
  obtain ⟨-, -, -, -, e20, e21, -⟩ := idx_facts t
  have hemb : ((cfg0.win 2).blk t).view.emb (ix2 r (0 : Fin 1)) = (ix2 (rowOf t r) (0 : Fin 1) : S8192x1.Idx) := by
    funext a; apply Fin.ext
    match a with
    | ⟨0, _⟩ => show win0_2.index t (0 : Fin 2) * 1024 + 1 * r.val = t.val * 1024 + r.val; rw [e20]; omega
    | ⟨1, _⟩ => show win0_2.index t (1 : Fin 2) * 1 + 1 * 0 = 0; rw [e21]
  show V m c main_v1 (((cfg0.win 2).blk t).view.emb (ix2 r (0 : Fin 1))) = _
  rw [hemb]
  exact (congrFun (V_v1 m c) _).trans (labcol_apply _ _)

include hk in
theorem k_at (t : Fin cfg0.N) (j : Fin 8192) : kblk m c t (ix2 (0 : Fin 1) j) = ((kr j : ℝ) : EReal) := by
  obtain ⟨-, -, e10, e11, -⟩ := idx_facts t
  have hemb : ((cfg0.win 1).blk t).view.emb (ix2 (0 : Fin 1) j) = (ix2 (0 : Fin 1) j : S1x8192.Idx) := by
    funext a; apply Fin.ext
    match a with
    | ⟨0, _⟩ => show win0_1.index t (0 : Fin 2) * 1 + 1 * 0 = 0; rw [e10]
    | ⟨1, _⟩ => show win0_1.index t (1 : Fin 2) * 8192 + 1 * j.val = j.val; rw [e11]; omega
  show V m c main_v0 (((cfg0.win 1).blk t).view.emb (ix2 (0 : Fin 1) j)) = _
  rw [hemb]
  exact (congrFun (V_v0 m c) _).trans ((krow_apply _ _).trans (hk _))

theorem lr_at (t : Fin cfg0.N) (j : Fin 8192) : lrblk m c t (ix2 (0 : Fin 1) j) = labOf m c j := by
  obtain ⟨-, -, -, -, -, -, e30, e31, -⟩ := idx_facts t
  have hemb : ((cfg0.win 3).blk t).view.emb (ix2 (0 : Fin 1) j) = (ix2 (0 : Fin 1) j : S1x8192.Idx) := by
    funext a; apply Fin.ext
    match a with
    | ⟨0, _⟩ => show win0_3.index t (0 : Fin 2) * 1 + 1 * 0 = 0; rw [e30]
    | ⟨1, _⟩ => show win0_3.index t (1 : Fin 2) * 8192 + 1 * j.val = j.val; rw [e31]; omega
  show V m c main_v2 (((cfg0.win 3).blk t).view.emb (ix2 (0 : Fin 1) j)) = _
  rw [hemb]
  exact (congrFun (V_v2 m c) _).trans (labrow_apply _ _)

include hk in
theorem mx_at (t : Fin cfg0.N) : mxblk m c t (ix2 (0 : Fin 1) (0 : Fin 1)) = ((kmax kr : ℝ) : EReal) := by
  obtain ⟨-, -, -, -, -, -, -, -, e40, e41, -⟩ := idx_facts t
  have hemb : ((cfg0.win 4).blk t).view.emb (ix2 (0 : Fin 1) (0 : Fin 1)) = (ix2 (0 : Fin 1) (0 : Fin 1) : S1x1.Idx) := by
    funext a; apply Fin.ext
    match a with
    | ⟨0, _⟩ => show win0_4.index t (0 : Fin 2) * 1 + 1 * 0 = 0; rw [e40]
    | ⟨1, _⟩ => show win0_4.index t (1 : Fin 2) * 1 + 1 * 0 = 0; rw [e41]
  show V m c main_v4 (((cfg0.win 4).blk t).view.emb (ix2 (0 : Fin 1) (0 : Fin 1))) = _
  rw [hemb]
  exact (congrFun (V_v4 m c) _).trans (kmax_apply _ kr hk)

include hk in
theorem mn_at (t : Fin cfg0.N) : mnblk m c t (ix2 (0 : Fin 1) (0 : Fin 1)) = ((kmin kr : ℝ) : EReal) := by
  obtain ⟨-, -, -, -, -, -, -, -, -, -, e50, e51, -⟩ := idx_facts t
  have hemb : ((cfg0.win 5).blk t).view.emb (ix2 (0 : Fin 1) (0 : Fin 1)) = (ix2 (0 : Fin 1) (0 : Fin 1) : S1x1.Idx) := by
    funext a; apply Fin.ext
    match a with
    | ⟨0, _⟩ => show win0_5.index t (0 : Fin 2) * 1 + 1 * 0 = 0; rw [e50]
    | ⟨1, _⟩ => show win0_5.index t (1 : Fin 2) * 1 + 1 * 0 = 0; rw [e51]
  show V m c main_v6 (((cfg0.win 5).blk t).view.emb (ix2 (0 : Fin 1) (0 : Fin 1))) = _
  rw [hemb]
  exact (congrFun (V_v6 m c) _).trans (kmin_apply _ kr hk)

include hq hk in
/-- What a point leaves in its output block: each of its rows' logarithm. -/
theorem block_fun (t : Fin cfg0.N) :
    outsAt0 m c t = fun y : S1024x1.Idx =>
      ((Real.log (kerPosSum qr kr (labOf m c) (rowOf t ⟨(y 0).val, idx2_lt0 y⟩)) : ℝ) : EReal) := by
  unfold outsAt0
  funext y
  obtain ⟨r, u, rfl⟩ : ∃ (r : Fin 1024) (u : Fin 1), y = ix2 r u := ⟨y 0, y 1, eq_ix2 y⟩
  obtain rfl : u = 0 := Subsingleton.elim _ _
  exact block_row qr kr (labOf m c) (rowOf t r) r (qblk m c t) (kblk m c t) (lcblk m c t) (lrblk m c t) (mxblk m c t) (mnblk m c t)
    c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
    (q_at m c qr hq t r) (lc_at m c t r) (k_at m c kr hk t) (lr_at m c t) (mx_at m c kr hk t) (mn_at m c kr hk t)

/-- The result array: each row's logarithm. -/
def G : S8192x1.Idx → EReal := fun idx =>
  ((Real.log (kerPosSum qr kr (labOf m c) ⟨(idx 0).val, idx2_lt0 idx⟩) : ℝ) : EReal)

include hq hk in
/-- What point `t` writes back is block `t` of that array. -/
theorem flushed_eq (t : Fin cfg0.N) :
    (dats m 0 c).flushed 6 t = ((cfg0.win 6).blk t).view.read (Elt Ideal) (G m c qr kr) := by
  show (cfg0.win 6).cut (grid0.coords t) ((dats m 0 c).after 6 t) = _
  rw [after0_6, block_fun m c qr kr hq hk t]
  obtain ⟨-, -, -, -, -, -, -, -, -, -, -, -, e60, e61⟩ := idx_facts t
  funext y
  have hrow : rowOf t ⟨(y 0).val, (y 0).isLt⟩
      = (⟨((((cfg0.win 6).blk t).view.emb y) 0).val, idx2_lt0 (((cfg0.win 6).blk t).view.emb y)⟩ : Fin 8192) := by
    apply Fin.ext
    show t.val * 1024 + (y 0).val = win0_6.index t (0 : Fin 2) * 1024 + 1 * (y 0).val
    rw [e60]; omega
  show ((Real.log (kerPosSum qr kr (labOf m c) (rowOf t ⟨(y 0).val, (y 0).isLt⟩)) : ℝ) : EReal)
    = G m c qr kr (((cfg0.win 6).blk t).view.emb y)
  unfold G
  rw [hrow]

/-- An index of the result array lies in point `t`'s block iff each coordinate is in the block's range. -/
theorem mem_blk (t : Fin cfg0.N) (i : S8192x1.Idx) :
    i ∈ ((cfg0.win 6).blk t).view.set ↔ ∀ a : Fin 2, win0_6.index t a * S1024x1.size a ≤ (i a).val ∧ (i a).val < win0_6.index t a * S1024x1.size a + S1024x1.size a := by
  show i ∈ ((View.whole main_v7).slice (win0_6.rect t)).set ↔ _
  rw [View.set_slice_whole, Rect.mem_set_unit]
  exact Iff.rfl

/-- Each of the eight row blocks is some point's. -/
theorem idx_onto : ∀ q : Fin 8, ∃ t : Fin cfg0.N, win0_6.index t = ![q.val, 0] :=
  (by decide +kernel : ∀ q : Fin 8, ∃ t : Fin grid0.N, win0_6.index t = ![q.val, 0])

/-- Row `i` lies in the block of point `i / 1024`, and every point writes its block back. -/
theorem cover (i : S8192x1.Idx) : ∃ t : Fin cfg0.N, (cfg0.win 6).flush t = true ∧ i ∈ ((cfg0.win 6).blk t).view.set := by
  have hi0 : (i 0).val < 8192 := (i 0).isLt
  have hi1 : (i 1).val < 1 := (i 1).isLt
  obtain ⟨t, ht⟩ := idx_onto ⟨(i 0).val / 1024, by omega⟩
  have q0 : win0_6.index t (0 : Fin 2) = (i 0).val / 1024 := congrFun ht 0
  have q1 : win0_6.index t (1 : Fin 2) = 0 := congrFun ht 1
  refine ⟨t, flush0_6 t, ?_⟩
  rw [mem_blk]
  intro a
  match a with
  | ⟨0, _⟩ => show win0_6.index t (0 : Fin 2) * 1024 ≤ (i 0).val ∧ (i 0).val < win0_6.index t (0 : Fin 2) * 1024 + 1024; omega
  | ⟨1, _⟩ => show win0_6.index t (1 : Fin 2) * 1 ≤ (i 1).val ∧ (i 1).val < win0_6.index t (1 : Fin 2) * 1 + 1; omega

include hq hk in
/-- The result array after the run: each row's logarithm. -/
theorem final : (dats m 0 c).arrAt 6 cfg0.N = G m c qr kr :=
  (dats m 0 c).arrAt_eq_of_cover 6 (G m c qr kr) (fun t _ => flushed_eq m c qr kr hq hk t) cover

include hq hk in
/-- The program's result: the tiled loss. -/
theorem tail_eq : Pipeline.afterTail₀ cfgs (dats m) 0 (V0 m) [hostOps1] c main_v10
    = fun _ => ((kerLoss qr kr (labOf m c) : ℝ) : EReal) := by
  unfold Pipeline.afterTail₀
  show StableHlo.after hostOps1 _ (Proc.devRef .tc main_v10) = _
  after_results
  have hw : Pipeline.withArrays (cfgs 0).spec c (V0 m c) (fun w => (dats m 0 c).arrAt w (cfgs 0).N) (Proc.devRef .tc main_v7)
      = G m c qr kr :=
    (Pipeline.withArrays_arr spec0 launch0.win.arr_inj c _ _ 6).trans (final m c qr kr hq hk)
  rw [hw]
  exact tail_value (G m c qr kr) qr kr (labOf m c) (fun i => rfl)

end

/-! ## The run, read -/

/-- For real features, every weakly fair execution of the tiled program ends with its result at the tiled loss and its
    arguments unchanged. -/
theorem run (qr kr : Dev nD → Fin 8192 → ℝ)
    (hq : ∀ (c : Dev nD) (i : Fin 8192), m ((c : Thread nD τ).loc main_arg0) (ix2 i (0 : Fin 1)) = ((qr c i : ℝ) : EReal))
    (hk : ∀ (c : Dev nD) (i : Fin 8192), m ((c : Thread nD τ).loc main_arg1) (ix2 i (0 : Fin 1)) = ((kr c i : ℝ) : EReal)) :
    θ_run defs (onTc (τ := τ) (main (F := Ideal))) ⟨m, fun _ => 0, ρ⟩ (fun r => ∀ c : Dev nD,
      r.2.mem ((c.tc : Thread nD τ).loc main_v10) = (fun _ => ((kerLoss (qr c) (kr c) (labOf m c) : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨((h c).2 main_v10 (Pipeline.mem_restRefs_of main_v10 (by decide) (by decide))).trans (tail_eq m c (qr c) (kr c) (hq c) (hk c)),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KerArray

end
-- ==== Proof.lean ====
/-
  The tiled kernel and the dense reference compute one loss.

  For 8192 row features `q`, column features `k` and integer labels, both programs return the mean over the rows `i` of
  `log Σ_j [label i = label j] · exp (q i · k j / τ − max_j q i · k j / τ)`, with `τ` the single-precision number nearest 0.07.
  The dense program builds the 8192 × 8192 logits, takes each row's maximum, masks by a 0/1 indicator and carries the further
  terms of a contrastive loss, which vanish or cancel. The tiled program multiplies by the reciprocal `1/τ` (its one constant
  read as that exact rational), takes the row maximum from the largest and the smallest `k`, and sums each row's positives in
  four chunks of 2048 columns inside a kernel over eight row blocks.

  The pieces: the reals' law that the two arrangements agree (Law); that under the precondition the features are reals
  (Finite); the dense program's result read stage by stage (RefValue); the kernel's body read back from its run — one chunk's
  step, the carry by induction over the chunks, a point's block, the eight blocks tiling the result array, the host's mean
  (KerOpen, KerPayload, KerBlock, KerHost, KerArray). Here they are put together.
-/
import proofs.«412339_j80324478370482_3_alg».proof.Defs
import proofs.«412339_j80324478370482_3_alg».proof.Proof.Gen.Kernel
import proofs.«412339_j80324478370482_3_alg».proof.Proof.Gen.Kernel.Skeleton
import proofs.«412339_j80324478370482_3_alg».proof.Proof.Gen.Kernel.Loops
import proofs.«412339_j80324478370482_3_alg».proof.Proof.Gen.Kernel.Launch
import proofs.«412339_j80324478370482_3_alg».proof.Proof.Gen.Kernel.Points
import proofs.«412339_j80324478370482_3_alg».proof.Proof.Gen.Kernel.Frame
import proofs.«412339_j80324478370482_3_alg».proof.Proof.Gen.KernelIdeal
import proofs.«412339_j80324478370482_3_alg».proof.Proof.Gen.KernelIdeal.Skeleton
import proofs.«412339_j80324478370482_3_alg».proof.Proof.Gen.KernelIdeal.Loops
import proofs.«412339_j80324478370482_3_alg».proof.Proof.Gen.KernelIdeal.Launch
import proofs.«412339_j80324478370482_3_alg».proof.Proof.Gen.KernelIdeal.Points
import proofs.«412339_j80324478370482_3_alg».proof.Proof.Gen.KernelIdeal.Frame
import proofs.«412339_j80324478370482_3_alg».proof.Proof.Gen.ReferenceIdeal
import proofs.«412339_j80324478370482_3_alg».proof.Proof.Gen.Pre_finite_inputs
import proofs.«412339_j80324478370482_3_alg».proof.Proof.Gen.ReferenceIdeal.Run
import proofs.«412339_j80324478370482_3_alg».proof.Proof.Gen.ReferenceIdeal.Read
import proofs.«412339_j80324478370482_3_alg».proof.Proof.Law
import proofs.«412339_j80324478370482_3_alg».proof.Proof.Finite
import proofs.«412339_j80324478370482_3_alg».proof.Proof.RefValue
import proofs.«412339_j80324478370482_3_alg».proof.Proof.KerArray
import Idealize.ShloMosaic.Adequacy
import Idealize.ShloMosaic.Init

noncomputable section

namespace Cert.Proof

open Idealize.ShloMosaic Idealize.ShloMosaic.TcCoe Idealize.ShloMosaic.ValueIdx Idealize.SL.Sem

theorem frame_p : Cert.frame_Kernel := fun m ρ _ => Cert.Kernel.Gen.frame m ρ

theorem frame_pi : Cert.frame_KernelIdeal := fun m ρ _ => Cert.KernelIdeal.Gen.frame m ρ

/-- The dense program has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The one rewrite of the idealization: the kernel's constant, the single-precision number nearest `1/τ`, is read as `1/τ`. -/
theorem preserves : Cert.preserves_Kernel_KernelIdeal :=
  IdealRules.named_const.statement Cert.KernelIdeal.κ "inv_T" .f32 0x41649249#32 ((134217728 / 9395241 : ℝ) : EReal) rfl

/-- From memories agreeing on the arguments, whose features are reals by the precondition, the tiled program ends at the tiled
    arrangement of the loss and the dense one at the dense arrangement: one number. -/
theorem algebraic : Cert.algebraic_KernelIdeal_ReferenceIdeal := by
  intro m ρ m' ρ' hpre hagree
  have hfin := fun c : Dev Cert.KernelIdeal.nD => Cert.Finite.reals_of_pre _ _ _ (hpre c)
  choose qr hqr using fun c => (hfin c).1
  choose kr hkr using fun c => (hfin c).2
  refine ⟨fun c _ => ((Cert.PosLogSum.kerLoss (qr c) (kr c) (Cert.KernelIdeal.KerArray.labOf m c) : ℝ) : EReal),
    Cert.KernelIdeal.KerArray.run m ρ qr kr hqr hkr, ?_⟩
  refine (θ_run Cert.ReferenceIdeal.defs _ _).mono (fun r h c => ⟨(h c).1.trans ?_, (h c).2⟩)
    (Cert.ReferenceIdeal.Value.run (F := Ideal) m' ρ')
  refine (Cert.ReferenceIdeal.Read.val_main_v31_eq (F := Ideal) _ _ _).trans ?_
  rw [(hagree c).1, (hagree c).2.1, (hagree c).2.2]
  refine (Cert.RefValue.result _ _ _ (qr c) (kr c) (hqr c) (hkr c)).trans ?_
  funext _
  show ((Cert.PosLogSum.refLoss (qr c) (kr c) (Cert.KernelIdeal.KerArray.labOf m c) : ℝ) : EReal)
    = ((Cert.PosLogSum.kerLoss (qr c) (kr c) (Cert.KernelIdeal.KerArray.labOf m c) : ℝ) : EReal)
  rw [Cert.PosLogSum.kerLoss_eq_refLoss]

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
